-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x256 : Shape := ⟨2, ![400000, 256]⟩
abbrev S400000 : Shape := ⟨1, ![400000]⟩
abbrev S256x128 : Shape := ⟨2, ![256, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S256x256 : Shape := ⟨2, ![256, 256]⟩
abbrev S256 : Shape := ⟨1, ![256]⟩
abbrev S_ : Shape := ⟨0, ![]⟩

class Facts : Prop where
  bcast_S_S400000x256 : S_.BroadcastsInDim S400000x256 (![] : Fin 0 → Fin S400000x256.rank)
  reducesTo_S400000x256_S_d0_1 : S400000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S256x256 .f32) (main_arg9 : FVec F S256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg5 : FVec F S128 .f32) (main_arg6 : FVec F S128x16 .f32) (main_arg7 : FVec F S16 .f32) (main_arg8 : FVec F S256x256 .f32) (main_arg9 : FVec F S256 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg6
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_v33

def fn {F : FTy → Type} [FloatOps F] (main_arg0 : FVec F S400000x256 .f32) (main_arg1 : IVec S400000 32) (main_arg2 : FVec F S256x128 .f32) (main_arg3 : FVec F S128 .f32) (main_arg4 : FVec F S128x128 .f32) (main_arg5 : FVec F S128 .f32) (main_arg6 : FVec F S128x16 .f32) (main_arg7 : FVec F S16 .f32) (main_arg8 : FVec F S256x256 .f32) (main_arg9 : FVec F S256 .f32) : IVec S_ 1 :=
  let main_v0 : FVec F S400000x256 .f32 := Host.absf main_arg0
  let main_cst : FVec F S_ .f32 := constant S_ .f32 0x7F800000#32
  let main_v1 : FVec F S400000x256 .f32 := broadcastInDim S400000x256 ![] bcast_S_S400000x256 main_cst
  let main_v2 : IVec S400000x256 1 := cmpf .olt main_v0 main_v1
  let main_c : IVec S_ 1 := constantI S_ 1 1#1
  let main_v3 : IVec S_ 1 := (fun x v => Host.reduce IntOp.andi x v reducesTo_S400000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S400000x256 : Shape := ⟨2, ![400000, 256]⟩
abbrev S400000 : Shape := ⟨1, ![400000]⟩
abbrev S256x128 : Shape := ⟨2, ![256, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S256x256 : Shape := ⟨2, ![256, 256]⟩
abbrev S256 : Shape := ⟨1, ![256]⟩
abbrev S400000x128 : Shape := ⟨2, ![400000, 128]⟩
abbrev S400000x16 : Shape := ⟨2, ![400000, 16]⟩
abbrev S4000x256 : Shape := ⟨2, ![4000, 256]⟩
abbrev S4000x128 : Shape := ⟨2, ![4000, 128]⟩
abbrev S4000x16 : Shape := ⟨2, ![4000, 16]⟩
abbrev S1x128 : Shape := ⟨2, ![1, 128]⟩
abbrev S1x16 : Shape := ⟨2, ![1, 16]⟩
abbrev S_ : Shape := ⟨0, ![]⟩
abbrev S400000x1 : Shape := ⟨2, ![400000, 1]⟩
abbrev S128x256 : Shape := ⟨2, ![128, 256]⟩
abbrev S1x256 : Shape := ⟨2, ![1, 256]⟩
abbrev S400000x272 : Shape := ⟨2, ![400000, 272]⟩

abbrev nBuf : Space → Nat
  | .hbm => 25
  | .vmem => 21
  | .smem => 0
  | _ => 0

abbrev bufTy : (tb : Table) → Fin (tcTables nBuf tb) → BufTy
  | .hbm, ⟨0, _⟩ => ⟨S400000x256, .f32⟩
  | .hbm, ⟨1, _⟩ => ⟨S400000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S256x256, .f32⟩
  | .hbm, ⟨9, _⟩ => ⟨S256, .f32⟩
  | .hbm, ⟨10, _⟩ => ⟨S400000x128, .bf16⟩
  | .hbm, ⟨11, _⟩ => ⟨S400000x16, .f32⟩
  | .hbm, ⟨12, _⟩ => ⟨S_, .i32⟩
  | .hbm, ⟨13, _⟩ => ⟨S400000, .i32⟩
  | .hbm, ⟨14, _⟩ => ⟨S400000, .i1⟩
  | .hbm, ⟨15, _⟩ => ⟨S_, .i32⟩
  | .hbm, ⟨16, _⟩ => ⟨S400000, .i32⟩
  | .hbm, ⟨17, _⟩ => ⟨S400000, .i32⟩
  | .hbm, ⟨18, _⟩ => ⟨S400000, .i32⟩
  | .hbm, ⟨19, _⟩ => ⟨S400000x1, .i32⟩
  | .hbm, ⟨20, _⟩ => ⟨S400000x128, .bf16⟩
  | .hbm, ⟨21, _⟩ => ⟨S128x256, .f32⟩
  | .hbm, ⟨22, _⟩ => ⟨S128x256, .f32⟩
  | .hbm, ⟨23, _⟩ => ⟨S400000x256, .f32⟩
  | .hbm, ⟨24, _⟩ => ⟨S400000x272, .f32⟩
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S128x16, .f32⟩
  | .local _ .vmem, ⟨7, _⟩ => ⟨S16, .f32⟩
  | .local _ .vmem, ⟨8, _⟩ => ⟨S4000x128, .bf16⟩
  | .local _ .vmem, ⟨9, _⟩ => ⟨S4000x128, .bf16⟩
  | .local _ .vmem, ⟨10, _⟩ => ⟨S4000x16, .f32⟩
  | .local _ .vmem, ⟨11, _⟩ => ⟨S4000x16, .f32⟩
  | .local _ .vmem, ⟨12, _⟩ => ⟨S4000x128, .bf16⟩
  | .local _ .vmem, ⟨13, _⟩ => ⟨S4000x128, .bf16⟩
  | .local _ .vmem, ⟨14, _⟩ => ⟨S4000x128, .bf16⟩
  | .local _ .vmem, ⟨15, _⟩ => ⟨S4000x128, .bf16⟩
  | .local _ .vmem, ⟨16, _⟩ => ⟨S128x256, .f32⟩
  | .local _ .vmem, ⟨17, _⟩ => ⟨S128x256, .f32⟩
  | .local _ .vmem, ⟨18, _⟩ => ⟨S256, .f32⟩
  | .local _ .vmem, ⟨19, _⟩ => ⟨S4000x256, .f32⟩
  | .local _ .vmem, ⟨20, _⟩ => ⟨S4000x256, .f32⟩
  | _, _ => ⟨S400000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4000x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  inb_S128x16_S128x16_0_0 : ∀ a, (![0, 0] : Fin 2 → Nat) a + S128x16.size a ≤ S128x16.size a
  h_S128x16 : 0 < S128x16.numel
  inb_S16_S16_0 : ∀ a, (![0] : Fin 1 → Nat) a + S16.size a ≤ S16.size a
  h_S16 : 0 < S16.numel
  shapeCasts_S16_S1x16 : S16.ShapeCasts S1x16
  broadcasts_S1x16_S4000x16 : S1x16.Broadcasts S4000x16
  inb_S4000x16_S4000x16_0_0 : ∀ a, (![0, 0] : Fin 2 → Nat) a + S4000x16.size a ≤ S4000x16.size a
  h_S4000x16 : 0 < S4000x16.numel
  bcast_S_S400000 : S_.BroadcastsInDim S400000 (![] : Fin 0 → Fin S400000.rank)
  bcast_S400000_S400000x1_0 : S400000.BroadcastsInDim S400000x1 (![0] : Fin 1 → Fin S400000x1.rank)
  slices_S256x256_S128x256_0_0 : S256x256.Slices ![0, 0] S128x256
  slices_S256x256_S128x256_128_0 : S256x256.Slices ![128, 0] S128x256
  shapeCasts_S4000x128_S4000x128 : S4000x128.ShapeCasts S4000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S4000x256 : S1x256.Broadcasts S4000x256
  concatenates_S400000x16_S400000x256_S400000x272_d1 : Shape.Concatenates [S400000x16, S400000x256] S400000x272 1
  dot_S4000x256_S256x128_S4000x128_1_0_0_1_n_n_wf : DotDims.WF S4000x256 S256x128 S4000x128 [1] [0] [0] [1] [] []
  dot_S4000x128_S128x128_S4000x128_1_0_0_1_n_n_wf : DotDims.WF S4000x128 S128x128 S4000x128 [1] [0] [0] [1] [] []
  dot_S4000x128_S128x16_S4000x16_1_0_0_1_n_n_wf : DotDims.WF S4000x128 S128x16 S4000x16 [1] [0] [0] [1] [] []
  gather_S400000x128_S400000x1_S400000x128_1_0_n_n_0_1_1128_wf : GatherDims.WF S400000x128 S400000x1 S400000x128 [1] [0] [] [0] [] 1 ![1, 128]
  dot_S4000x128_S128x256_S4000x256_1_0_0_1_n_n_wf : DotDims.WF S4000x128 S128x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S400000x256.size a
  hwx0_0 : ∀ i : grid0.Coords, EltTy.bits .f32 = 32 ∨ (Rect.block (s := S400000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x16.size a ≤ S128x16.size a
  hwx0_5 : ∀ i : grid0.Coords, EltTy.bits .f32 = 32 ∨ (Rect.block (s := S128x16) S128x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16.size a ≤ S16.size a
  hwx0_6 : ∀ i : grid0.Coords, EltTy.bits .f32 = 32 ∨ (Rect.block (s := S16) S16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S400000x128.size a
  hwx0_7 : ∀ i : grid0.Coords, EltTy.bits .bf16 = 32 ∨ (Rect.block (s := S400000x128) S4000x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x16.size a ≤ S400000x16.size a
  hwx0_8 : ∀ i : grid0.Coords, EltTy.bits .f32 = 32 ∨ (Rect.block (s := S400000x16) S4000x16.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S400000x128.size a
  hwx1_0 : ∀ i : grid1.Coords, EltTy.bits .bf16 = 32 ∨ (Rect.block (s := S400000x128) S4000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S400000x128.size a
  hwx1_1 : ∀ i : grid1.Coords, EltTy.bits .bf16 = 32 ∨ (Rect.block (s := S400000x128) S4000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x256.size a ≤ S400000x256.size a
  hwx1_5 : ∀ i : grid1.Coords, EltTy.bits .f32 = 32 ∨ (Rect.block (s := S400000x256) S4000x256.size (cc1_transform_5 i) (hinb1_5 i)).WholeWords (EltTy.packing .f32)

variable [Facts₀]

def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x16_S4000x16_1_0_0_1_n_n : DotDims S4000x128 S128x16 S4000x16 where
  lhsContracting := [1]
  rhsContracting := [0]
  lhsNonContracting := [0]
  rhsNonContracting := [1]
  lhsBatch := []
  rhsBatch := []
  wf := dot_S4000x128_S128x16_S4000x16_1_0_0_1_n_n_wf
def gather_S400000x128_S400000x1_S400000x128_1_0_n_n_0_1_1128 : GatherDims S400000x128 S400000x1 S400000x128 where
  offsetDims := [1]
  collapsedSliceDims := [0]
  operandBatchingDims := []
  startIndicesBatchingDims := []
  startIndexMap := [0]
  indexVectorDim := 1
  sliceSizes := ![1, 128]
  wf := gather_S400000x128_S400000x1_S400000x128_1_0_n_n_0_1_1128_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S4000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S4000x16.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v7) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S4000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S400000x256 : Shape := ⟨2, ![400000, 256]⟩
abbrev S400000 : Shape := ⟨1, ![400000]⟩
abbrev S256x128 : Shape := ⟨2, ![256, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S256x256 : Shape := ⟨2, ![256, 256]⟩
abbrev S256 : Shape := ⟨1, ![256]⟩
abbrev S400000x128 : Shape := ⟨2, ![400000, 128]⟩
abbrev S1x128 : Shape := ⟨2, ![1, 128]⟩
abbrev S_ : Shape := ⟨0, ![]⟩
abbrev S400000x16 : Shape := ⟨2, ![400000, 16]⟩
abbrev S1x16 : Shape := ⟨2, ![1, 16]⟩
abbrev S400000x1 : Shape := ⟨2, ![400000, 1]⟩
abbrev S1x256 : Shape := ⟨2, ![1, 256]⟩
abbrev S400000x272 : Shape := ⟨2, ![400000, 272]⟩

abbrev nBuf : Space → Nat
  | .hbm => 43
  | .vmem => 0
  | .smem => 0
  | _ => 0

abbrev bufTy : (tb : Table) → Fin (tcTables nBuf tb) → BufTy
  | .hbm, ⟨0, _⟩ => ⟨S400000x256, .f32⟩
  | .hbm, ⟨1, _⟩ => ⟨S400000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S256x256, .f32⟩
  | .hbm, ⟨9, _⟩ => ⟨S256, .f32⟩
  | .hbm, ⟨10, _⟩ => ⟨S400000x128, .f32⟩
  | .hbm, ⟨11, _⟩ => ⟨S1x128, .f32⟩
  | .hbm, ⟨12, _⟩ => ⟨S400000x128, .f32⟩
  | .hbm, ⟨13, _⟩ => ⟨S400000x128, .f32⟩
  | .hbm, ⟨14, _⟩ => ⟨S_, .f32⟩
  | .hbm, ⟨15, _⟩ => ⟨S400000x128, .f32⟩
  | .hbm, ⟨16, _⟩ => ⟨S400000x128, .f32⟩
  | .hbm, ⟨17, _⟩ => ⟨S400000x128, .f32⟩
  | .hbm, ⟨18, _⟩ => ⟨S1x128, .f32⟩
  | .hbm, ⟨19, _⟩ => ⟨S400000x128, .f32⟩
  | .hbm, ⟨20, _⟩ => ⟨S400000x128, .f32⟩
  | .hbm, ⟨21, _⟩ => ⟨S_, .f32⟩
  | .hbm, ⟨22, _⟩ => ⟨S400000x128, .f32⟩
  | .hbm, ⟨23, _⟩ => ⟨S400000x128, .f32⟩
  | .hbm, ⟨24, _⟩ => ⟨S400000x16, .f32⟩
  | .hbm, ⟨25, _⟩ => ⟨S1x16, .f32⟩
  | .hbm, ⟨26, _⟩ => ⟨S400000x16, .f32⟩
  | .hbm, ⟨27, _⟩ => ⟨S400000x16, .f32⟩
  | .hbm, ⟨28, _⟩ => ⟨S_, .i32⟩
  | .hbm, ⟨29, _⟩ => ⟨S400000, .i32⟩
  | .hbm, ⟨30, _⟩ => ⟨S400000, .i1⟩
  | .hbm, ⟨31, _⟩ => ⟨S_, .i32⟩
  | .hbm, ⟨32, _⟩ => ⟨S400000, .i32⟩
  | .hbm, ⟨33, _⟩ => ⟨S400000, .i32⟩
  | .hbm, ⟨34, _⟩ => ⟨S400000, .i32⟩
  | .hbm, ⟨35, _⟩ => ⟨S400000x1, .i32⟩
  | .hbm, ⟨36, _⟩ => ⟨S400000x128, .f32⟩
  | .hbm, ⟨37, _⟩ => ⟨S400000x256, .f32⟩
  | .hbm, ⟨38, _⟩ => ⟨S400000x256, .f32⟩
  | .hbm, ⟨39, _⟩ => ⟨S1x256, .f32⟩
  | .hbm, ⟨40, _⟩ => ⟨S400000x256, .f32⟩
  | .hbm, ⟨41, _⟩ => ⟨S400000x256, .f32⟩
  | .hbm, ⟨42, _⟩ => ⟨S400000x272, .f32⟩
  | _, _ => ⟨S400000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S16_S1x16_1 : S16.BroadcastsInDim S1x16 (![1] : Fin 1 → Fin S1x16.rank)
  bcast_S1x16_S400000x16_0_1 : S1x16.BroadcastsInDim S400000x16 (![0, 1] : Fin 2 → Fin S400000x16.rank)
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x256_d1 : Shape.Concatenates [S400000x128, S400000x128] S400000x256 1
  bcast_S256_S1x256_1 : S256.BroadcastsInDim S1x256 (![1] : Fin 1 → Fin S1x256.rank)
  bcast_S1x256_S400000x256_0_1 : S1x256.BroadcastsInDim S400000x256 (![0, 1] : Fin 2 → Fin S400000x256.rank)
  concatenates_S400000x16_S400000x256_S400000x272_d1 : Shape.Concatenates [S400000x16, S400000x256] S400000x272 1
  dot_S400000x256_S256x128_S400000x128_1_0_0_1_n_n_wf : DotDims.WF S400000x256 S256x128 S400000x128 [1] [0] [0] [1] [] []
  dot_S400000x128_S128x128_S400000x128_1_0_0_1_n_n_wf : DotDims.WF S400000x128 S128x128 S400000x128 [1] [0] [0] [1] [] []
  dot_S400000x128_S128x16_S400000x16_1_0_0_1_n_n_wf : DotDims.WF S400000x128 S128x16 S400000x16 [1] [0] [0] [1] [] []
  gather_S400000x128_S400000x1_S400000x128_1_0_n_n_0_1_1128_wf : GatherDims.WF S400000x128 S400000x1 S400000x128 [1] [0] [] [0] [] 1 ![1, 128]
  dot_S400000x256_S256x256_S400000x256_1_0_0_1_n_n_wf : DotDims.WF S400000x256 S256x256 S400000x256 [1] [0] [0] [1] [] []

variable [Facts₀]

def dot_S400000x256_S256x128_S400000x128_1_0_0_1_n_n : DotDims S400000x256 S256x128 S400000x128 where
  lhsContracting := [1]
  rhsContracting := [0]
  lhsNonContracting := [0]
  rhsNonContracting := [1]
  lhsBatch := []
  rhsBatch := []
  wf := dot_S400000x256_S256x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def dot_S400000x128_S128x16_S400000x16_1_0_0_1_n_n : DotDims S400000x128 S128x16 S400000x16 where
  lhsContracting := [1]
  rhsContracting := [0]
  lhsNonContracting := [0]
  rhsNonContracting := [1]
  lhsBatch := []
  rhsBatch := []
  wf := dot_S400000x128_S128x16_S400000x16_1_0_0_1_n_n_wf
def gather_S400000x128_S400000x1_S400000x128_1_0_n_n_0_1_1128 : GatherDims S400000x128 S400000x1 S400000x128 where
  offsetDims := [1]
  collapsedSliceDims := [0]
  operandBatchingDims := []
  startIndicesBatchingDims := []
  startIndexMap := [0]
  indexVectorDim := 1
  sliceSizes := ![1, 128]
  wf := gather_S400000x128_S400000x1_S400000x128_1_0_n_n_0_1_1128_wf
def dot_S400000x256_S256x256_S400000x256_1_0_0_1_n_n : DotDims S400000x256 S256x256 S400000x256 where
  lhsContracting := [1]
  rhsContracting := [0]
  lhsNonContracting := [0]
  rhsNonContracting := [1]
  lhsBatch := []
  rhsBatch := []
  wf := dot_S400000x256_S256x256_S400000x256_1_0_0_1_n_n_wf

class Facts : Prop extends Facts₀ where

variable [Facts]
-- ==== Proof.Spec.lean ====
/-
  The arithmetic both programs compute, stated once, row by row, on the extended reals.

  A node's feature row x (256 entries) goes through two affine layers, each followed by max(., 0), to a hidden row
  of 128 entries; the unary potentials are one more affine layer of the hidden row (16 entries); the edge potentials
  (256 entries) are an affine layer of the pair (parent's hidden row, own hidden row) laid end to end, 256 entries
  against a 256 x 256 matrix.  One program contracts the pair against the whole matrix; the other contracts each half
  against its half of the matrix and adds.  The two agree because a finite sum over 256 indices splits at 128, which
  holds in any additive commutative monoid: no finiteness of the entries is used.
-/
import Idealize.ShloMosaic.PureOps.Ideal.Laws
import Idealize.ShloMosaic.Lib.ValueIdx

noncomputable section

namespace Cert.TreePotentials

open Idealize.ShloMosaic Idealize.ShloMosaic.ValueIdx

/-- An r x c array of extended reals, indexed by its two coordinates. -/
abbrev Mat (r c : Nat) : Type := (⟨2, ![r, c]⟩ : Shape).Idx → EReal
/-- A row of c extended reals. -/
abbrev Row (c : Nat) : Type := (⟨1, ![c]⟩ : Shape).Idx → EReal

/-- One affine layer on a row x of K entries: (x · W + b) at column q. -/
def affine (K M : Nat) (x : Fin K → EReal) (W : Mat K M) (b : Row M) (q : Fin M) : EReal :=
  (∑ k : Fin K, x k * W (ix2 k q)) + b (ix1 q)

/-- The hidden row of a node with feature row x: two affine layers, each followed by max(., 0). -/
def hiddenRow (x : Fin 256 → EReal) (W1 : Mat 256 128) (b1 : Row 128) (W2 : Mat 128 128) (b2 : Row 128)
    (q : Fin 128) : EReal :=
  max (affine 128 128 (fun k => max (affine 256 128 x W1 b1 k) 0) W2 b2 q) 0

/-- The edge potentials of a node from its parent's hidden row p and its own h, each half contracted against its
    own half of the matrix. -/
def edgeHalves (p h : Fin 128 → EReal) (Wt Wb : Mat 128 256) (be : Row 256) (q : Fin 256) : EReal :=
  ((∑ k : Fin 128, p k * Wt (ix2 k q)) + ∑ k : Fin 128, h k * Wb (ix2 k q)) + be (ix1 q)

/-- Every node's hidden row. -/
def hiddenArr (X : Mat 400000 256) (W1 : Mat 256 128) (b1 : Row 128) (W2 : Mat 128 128) (b2 : Row 128) :
    Mat 400000 128 :=
  fun j => hiddenRow (fun l => X (ix2 (j 0) l)) W1 b1 W2 b2 (j 1)

/-- Every node's unary potentials, from the hidden rows. -/
def unaryArr (H : Mat 400000 128) (Wu : Mat 128 16) (bu : Row 16) : Mat 400000 16 :=
  fun j => affine 128 16 (fun k => H (ix2 (j 0) k)) Wu bu (j 1)

/-- Every node's edge potentials, from the parents' hidden rows P and the nodes' own H. -/
def edgeArr (P H : Mat 400000 128) (Wt Wb : Mat 128 256) (be : Row 256) : Mat 400000 256 :=
  fun j => edgeHalves (fun k => P (ix2 (j 0) k)) (fun k => H (ix2 (j 0) k)) Wt Wb be (j 1)

/-- A sum over 256 indices is the sum over the first 128 plus the sum over the last 128. -/
theorem sum_split_128 (f : Fin 256 → EReal) :
    ∑ k : Fin 256, f k
      = (∑ k : Fin 128, f ⟨k.val, by omega⟩) + ∑ k : Fin 128, f ⟨128 + k.val, by omega⟩ :=
  Fin.sum_univ_add (M := EReal) (a := 128) (b := 128) f

end Cert.TreePotentials

end
-- ==== Proof.Payload.lean ====
/-
  What each kernel body computes, read at one row p and one column q of its block, on the extended reals.

  Every body is row-wise: row p of an output block depends only on row p of the input blocks and on the (whole)
  weight and bias blocks.  A product into a zero accumulator with one contracted axis is the plain sum over that
  axis; a bias row cast to one row and broadcast down the block reads the bias at the column; a change of float
  format is the identity; max against the zero splat is max(., 0).  So the first body's hidden block is two affine
  layers each followed by max(., 0), its unary block one more affine layer of the hidden block, and the second
  body's block the two half-contractions added, plus the bias.
-/
import proofs.«100820_j17549236372232_1_alg».proof.Proof.Gen.KernelIdeal.Skeleton
import proofs.«100820_j17549236372232_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen Cert.TreePotentials

/-! ## The four products, each read at (p, q) as a sum over the contracted axis -/

/-! ### [4000, 256] x [256, 128] -/

theorem lhs_a_0 (i : S4000x128.Idx) (k : dot_S4000x256_S256x128_S4000x128_1_0_0_1_n_n.contr.Idx) :
    (dot_S4000x256_S256x128_S4000x128_1_0_0_1_n_n.lhsIdx i k 0).val = (i 0).val := by
  unfold DotDims.lhsIdx
  rw [dif_neg (show ¬(0 : Fin S4000x256.rank) ∈ dot_S4000x256_S256x128_S4000x128_1_0_0_1_n_n.lhsBatch by decide),
    dif_pos (show (0 : Fin S4000x256.rank) ∈ dot_S4000x256_S256x128_S4000x128_1_0_0_1_n_n.lhsNonContracting by decide)]
  rfl
theorem lhs_a_1 (i : S4000x128.Idx) (k : dot_S4000x256_S256x128_S4000x128_1_0_0_1_n_n.contr.Idx) :
    (dot_S4000x256_S256x128_S4000x128_1_0_0_1_n_n.lhsIdx i k 1).val = (k ⟨0, by decide⟩).val :=
  dot_S4000x256_S256x128_S4000x128_1_0_0_1_n_n.lhsIdx_val_of_single rfl i k
theorem rhs_a_0 (i : S4000x128.Idx) (k : dot_S4000x256_S256x128_S4000x128_1_0_0_1_n_n.contr.Idx) :
    (dot_S4000x256_S256x128_S4000x128_1_0_0_1_n_n.rhsIdx i k 0).val = (k ⟨0, by decide⟩).val :=
  dot_S4000x256_S256x128_S4000x128_1_0_0_1_n_n.rhsIdx_val_of_single rfl i k
theorem rhs_a_1 (i : S4000x128.Idx) (k : dot_S4000x256_S256x128_S4000x128_1_0_0_1_n_n.contr.Idx) :
    (dot_S4000x256_S256x128_S4000x128_1_0_0_1_n_n.rhsIdx i k 1).val = (i 1).val := by
  unfold DotDims.rhsIdx
  rw [dif_neg (show ¬(1 : Fin S256x128.rank) ∈ dot_S4000x256_S256x128_S4000x128_1_0_0_1_n_n.rhsBatch by decide),
    dif_pos (show (1 : Fin S256x128.rank) ∈ dot_S4000x256_S256x128_S4000x128_1_0_0_1_n_n.rhsNonContracting by decide)]
  rfl

/-- Rows of a [4000, 256] block against a [256, 128] matrix, into zero: the sum over the 256 shared indices. -/
theorem prod_a (l : FVec Ideal S4000x256 .bf16) (r : FVec Ideal S256x128 .bf16) (p : Fin 4000) (q : Fin 128) :
    matmul dot_S4000x256_S256x128_S4000x128_1_0_0_1_n_n none l r (constant S4000x128 .f32 0x00000000#32) (ix2 p q)
      = ∑ k : Fin 256, l (ix2 p k) * r (ix2 k q) := by
  refine (Ideal.matmul_constant_zero_apply dot_S4000x256_S256x128_S4000x128_1_0_0_1_n_n none l r (ix2 p q)).trans ?_
  rw [← Equiv.sum_comp (contrEquiv1 dot_S4000x256_S256x128_S4000x128_1_0_0_1_n_n 256 rfl rfl).symm]
  refine Finset.sum_congr rfl fun k _ => ?_
  have hk := contrEquiv1_symm_val dot_S4000x256_S256x128_S4000x128_1_0_0_1_n_n 256 rfl rfl k
  have el : dot_S4000x256_S256x128_S4000x128_1_0_0_1_n_n.lhsIdx (ix2 p q)
      ((contrEquiv1 dot_S4000x256_S256x128_S4000x128_1_0_0_1_n_n 256 rfl rfl).symm k) = ix2 p k :=
    funext fun a => Fin.ext (by
      match a with
      | ⟨0, _⟩ => exact lhs_a_0 _ _
      | ⟨1, _⟩ => exact (lhs_a_1 _ _).trans hk)
  have er : dot_S4000x256_S256x128_S4000x128_1_0_0_1_n_n.rhsIdx (ix2 p q)
      ((contrEquiv1 dot_S4000x256_S256x128_S4000x128_1_0_0_1_n_n 256 rfl rfl).symm k) = ix2 k q :=
    funext fun a => Fin.ext (by
      match a with
      | ⟨0, _⟩ => exact (rhs_a_0 _ _).trans hk
      | ⟨1, _⟩ => exact rhs_a_1 _ _)
  rw [el, er]

/-! ### [4000, 128] x [128, 128] -/

theorem lhs_b_0 (i : S4000x128.Idx) (k : dot_S4000x128_S128x128_S4000x128_1_0_0_1_n_n.contr.Idx) :
    (dot_S4000x128_S128x128_S4000x128_1_0_0_1_n_n.lhsIdx i k 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
theorem lhs_b_1 (i : S4000x128.Idx) (k : dot_S4000x128_S128x128_S4000x128_1_0_0_1_n_n.contr.Idx) :
    (dot_S4000x128_S128x128_S4000x128_1_0_0_1_n_n.lhsIdx i k 1).val = (k ⟨0, by decide⟩).val :=
  dot_S4000x128_S128x128_S4000x128_1_0_0_1_n_n.lhsIdx_val_of_single rfl i k
theorem rhs_b_0 (i : S4000x128.Idx) (k : dot_S4000x128_S128x128_S4000x128_1_0_0_1_n_n.contr.Idx) :
    (dot_S4000x128_S128x128_S4000x128_1_0_0_1_n_n.rhsIdx i k 0).val = (k ⟨0, by decide⟩).val :=
  dot_S4000x128_S128x128_S4000x128_1_0_0_1_n_n.rhsIdx_val_of_single rfl i k
theorem rhs_b_1 (i : S4000x128.Idx) (k : dot_S4000x128_S128x128_S4000x128_1_0_0_1_n_n.contr.Idx) :
    (dot_S4000x128_S128x128_S4000x128_1_0_0_1_n_n.rhsIdx i k 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- Rows of a [4000, 128] block against a [128, 128] matrix, into zero: the sum over the 128 shared indices. -/
theorem prod_b (l : FVec Ideal S4000x128 .bf16) (r : FVec Ideal S128x128 .bf16) (p : Fin 4000) (q : Fin 128) :
    matmul dot_S4000x128_S128x128_S4000x128_1_0_0_1_n_n none l r (constant S4000x128 .f32 0x00000000#32) (ix2 p q)
      = ∑ k : Fin 128, l (ix2 p k) * r (ix2 k q) := by
  refine (Ideal.matmul_constant_zero_apply dot_S4000x128_S128x128_S4000x128_1_0_0_1_n_n none l r (ix2 p q)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q)
      ((contrEquiv1 dot_S4000x128_S128x128_S4000x128_1_0_0_1_n_n 128 rfl rfl).symm k) = ix2 p k :=
    funext fun a => Fin.ext (by
      match a with
      | ⟨0, _⟩ => exact lhs_b_0 _ _
      | ⟨1, _⟩ => exact (lhs_b_1 _ _).trans hk)
  have er : dot_S4000x128_S128x128_S4000x128_1_0_0_1_n_n.rhsIdx (ix2 p q)
      ((contrEquiv1 dot_S4000x128_S128x128_S4000x128_1_0_0_1_n_n 128 rfl rfl).symm k) = ix2 k q :=
    funext fun a => Fin.ext (by
      match a with
      | ⟨0, _⟩ => exact (rhs_b_0 _ _).trans hk
      | ⟨1, _⟩ => exact rhs_b_1 _ _)
  rw [el, er]

/-! ### [4000, 128] x [128, 16] -/

theorem lhs_c_0 (i : S4000x16.Idx) (k : dot_S4000x128_S128x16_S4000x16_1_0_0_1_n_n.contr.Idx) :
    (dot_S4000x128_S128x16_S4000x16_1_0_0_1_n_n.lhsIdx i k 0).val = (i 0).val := by
  unfold DotDims.lhsIdx
  rw [dif_neg (show ¬(0 : Fin S4000x128.rank) ∈ dot_S4000x128_S128x16_S4000x16_1_0_0_1_n_n.lhsBatch by decide),
    dif_pos (show (0 : Fin S4000x128.rank) ∈ dot_S4000x128_S128x16_S4000x16_1_0_0_1_n_n.lhsNonContracting by decide)]
  rfl
theorem lhs_c_1 (i : S4000x16.Idx) (k : dot_S4000x128_S128x16_S4000x16_1_0_0_1_n_n.contr.Idx) :
    (dot_S4000x128_S128x16_S4000x16_1_0_0_1_n_n.lhsIdx i k 1).val = (k ⟨0, by decide⟩).val :=
  dot_S4000x128_S128x16_S4000x16_1_0_0_1_n_n.lhsIdx_val_of_single rfl i k
theorem rhs_c_0 (i : S4000x16.Idx) (k : dot_S4000x128_S128x16_S4000x16_1_0_0_1_n_n.contr.Idx) :
    (dot_S4000x128_S128x16_S4000x16_1_0_0_1_n_n.rhsIdx i k 0).val = (k ⟨0, by decide⟩).val :=
  dot_S4000x128_S128x16_S4000x16_1_0_0_1_n_n.rhsIdx_val_of_single rfl i k
theorem rhs_c_1 (i : S4000x16.Idx) (k : dot_S4000x128_S128x16_S4000x16_1_0_0_1_n_n.contr.Idx) :
    (dot_S4000x128_S128x16_S4000x16_1_0_0_1_n_n.rhsIdx i k 1).val = (i 1).val := by
  unfold DotDims.rhsIdx
  rw [dif_neg (show ¬(1 : Fin S128x16.rank) ∈ dot_S4000x128_S128x16_S4000x16_1_0_0_1_n_n.rhsBatch by decide),
    dif_pos (show (1 : Fin S128x16.rank) ∈ dot_S4000x128_S128x16_S4000x16_1_0_0_1_n_n.rhsNonContracting by decide)]
  rfl

/-- Rows of a [4000, 128] block against a [128, 16] matrix, into zero: the sum over the 128 shared indices. -/
theorem prod_c (l : FVec Ideal S4000x128 .bf16) (r : FVec Ideal S128x16 .bf16) (p : Fin 4000) (q : Fin 16) :
    matmul dot_S4000x128_S128x16_S4000x16_1_0_0_1_n_n none l r (constant S4000x16 .f32 0x00000000#32) (ix2 p q)
      = ∑ k : Fin 128, l (ix2 p k) * r (ix2 k q) := by
  refine (Ideal.matmul_constant_zero_apply dot_S4000x128_S128x16_S4000x16_1_0_0_1_n_n none l r (ix2 p q)).trans ?_
  rw [← Equiv.sum_comp (contrEquiv1 dot_S4000x128_S128x16_S4000x16_1_0_0_1_n_n 128 rfl rfl).symm]
  refine Finset.sum_congr rfl fun k _ => ?_
  have hk := contrEquiv1_symm_val dot_S4000x128_S128x16_S4000x16_1_0_0_1_n_n 128 rfl rfl k
  have el : dot_S4000x128_S128x16_S4000x16_1_0_0_1_n_n.lhsIdx (ix2 p q)
      ((contrEquiv1 dot_S4000x128_S128x16_S4000x16_1_0_0_1_n_n 128 rfl rfl).symm k) = ix2 p k :=
    funext fun a => Fin.ext (by
      match a with
      | ⟨0, _⟩ => exact lhs_c_0 _ _
      | ⟨1, _⟩ => exact (lhs_c_1 _ _).trans hk)
  have er : dot_S4000x128_S128x16_S4000x16_1_0_0_1_n_n.rhsIdx (ix2 p q)
      ((contrEquiv1 dot_S4000x128_S128x16_S4000x16_1_0_0_1_n_n 128 rfl rfl).symm k) = ix2 k q :=
    funext fun a => Fin.ext (by
      match a with
      | ⟨0, _⟩ => exact (rhs_c_0 _ _).trans hk
      | ⟨1, _⟩ => exact rhs_c_1 _ _)
  rw [el, er]

/-! ### [4000, 128] x [128, 256] -/

theorem lhs_d_0 (i : S4000x256.Idx) (k : dot_S4000x128_S128x256_S4000x256_1_0_0_1_n_n.contr.Idx) :
    (dot_S4000x128_S128x256_S4000x256_1_0_0_1_n_n.lhsIdx i k 0).val = (i 0).val := by
  unfold DotDims.lhsIdx
  rw [dif_neg (show ¬(0 : Fin S4000x128.rank) ∈ dot_S4000x128_S128x256_S4000x256_1_0_0_1_n_n.lhsBatch by decide),
    dif_pos (show (0 : Fin S4000x128.rank) ∈ dot_S4000x128_S128x256_S4000x256_1_0_0_1_n_n.lhsNonContracting by decide)]
  rfl
theorem lhs_d_1 (i : S4000x256.Idx) (k : dot_S4000x128_S128x256_S4000x256_1_0_0_1_n_n.contr.Idx) :
    (dot_S4000x128_S128x256_S4000x256_1_0_0_1_n_n.lhsIdx i k 1).val = (k ⟨0, by decide⟩).val :=
  dot_S4000x128_S128x256_S4000x256_1_0_0_1_n_n.lhsIdx_val_of_single rfl i k
theorem rhs_d_0 (i : S4000x256.Idx) (k : dot_S4000x128_S128x256_S4000x256_1_0_0_1_n_n.contr.Idx) :
    (dot_S4000x128_S128x256_S4000x256_1_0_0_1_n_n.rhsIdx i k 0).val = (k ⟨0, by decide⟩).val :=
  dot_S4000x128_S128x256_S4000x256_1_0_0_1_n_n.rhsIdx_val_of_single rfl i k
theorem rhs_d_1 (i : S4000x256.Idx) (k : dot_S4000x128_S128x256_S4000x256_1_0_0_1_n_n.contr.Idx) :
    (dot_S4000x128_S128x256_S4000x256_1_0_0_1_n_n.rhsIdx i k 1).val = (i 1).val := by
  unfold DotDims.rhsIdx
  rw [dif_neg (show ¬(1 : Fin S128x256.rank) ∈ dot_S4000x128_S128x256_S4000x256_1_0_0_1_n_n.rhsBatch by decide),
    dif_pos (show (1 : Fin S128x256.rank) ∈ dot_S4000x128_S128x256_S4000x256_1_0_0_1_n_n.rhsNonContracting by decide)]
  rfl

/-- Rows of a [4000, 128] block against a [128, 256] matrix, into zero: the sum over the 128 shared indices. -/
theorem prod_d (l : FVec Ideal S4000x128 .bf16) (r : FVec Ideal S128x256 .bf16) (p : Fin 4000) (q : Fin 256) :
    matmul dot_S4000x128_S128x256_S4000x256_1_0_0_1_n_n none l r (constant S4000x256 .f32 0x00000000#32) (ix2 p q)
      = ∑ k : Fin 128, l (ix2 p k) * r (ix2 k q) := by
  refine (Ideal.matmul_constant_zero_apply dot_S4000x128_S128x256_S4000x256_1_0_0_1_n_n none l r (ix2 p q)).trans ?_
  rw [← Equiv.sum_comp (contrEquiv1 dot_S4000x128_S128x256_S4000x256_1_0_0_1_n_n 128 rfl rfl).symm]
  refine Finset.sum_congr rfl fun k _ => ?_
  have hk := contrEquiv1_symm_val dot_S4000x128_S128x256_S4000x256_1_0_0_1_n_n 128 rfl rfl k
  have el : dot_S4000x128_S128x256_S4000x256_1_0_0_1_n_n.lhsIdx (ix2 p q)
      ((contrEquiv1 dot_S4000x128_S128x256_S4000x256_1_0_0_1_n_n 128 rfl rfl).symm k) = ix2 p k :=
    funext fun a => Fin.ext (by
      match a with
      | ⟨0, _⟩ => exact lhs_d_0 _ _
      | ⟨1, _⟩ => exact (lhs_d_1 _ _).trans hk)
  have er : dot_S4000x128_S128x256_S4000x256_1_0_0_1_n_n.rhsIdx (ix2 p q)
      ((contrEquiv1 dot_S4000x128_S128x256_S4000x256_1_0_0_1_n_n 128 rfl rfl).symm k) = ix2 k q :=
    funext fun a => Fin.ext (by
      match a with
      | ⟨0, _⟩ => exact (rhs_d_0 _ _).trans hk
      | ⟨1, _⟩ => exact rhs_d_1 _ _)
  rw [el, er]

/-! ## A bias row cast to one row and broadcast down a block reads the bias at the column -/

theorem bias_at {a c : Nat} (b : (⟨1, ![c]⟩ : Shape).Idx → EReal) (h1 : (⟨1, ![c]⟩ : Shape).ShapeCasts ⟨2, ![1, c]⟩)
    (h2 : (⟨2, ![1, c]⟩ : Shape).Broadcasts ⟨2, ![a, c]⟩) (p : Fin a) (q : Fin c) :
    broadcastTo ⟨2, ![a, c]⟩ (shapeCast ⟨2, ![1, c]⟩ b h1) h2 (ix2 p q) = b (ix1 q) :=
  (broadcastTo_1b_ab_apply _ h2 p q).trans (shapeCast_a_1a_apply b h1 0 q)

/-- The zero word denotes zero. -/
theorem zero_word : Scalar.ofBits (F := Ideal) .f32 0x00000000#32 = (0 : EReal) := Ideal.ofBits_zero_f32

/-! ## One affine layer of a block, read at (p, q) -/

/-- The first layer and its max(., 0): rows of the feature block against the first weight matrix, plus its bias. -/
theorem layer_a (a : FVec Ideal S4000x256 .bf16) (w : FVec Ideal S256x128 .bf16) (b : FVec Ideal S128 .f32)
    (h1 : S128.ShapeCasts S1x128) (h2 : S1x128.Broadcasts S4000x128) (p : Fin 4000) (q : Fin 128) :
    maximumf (addf (matmul dot_S4000x256_S256x128_S4000x128_1_0_0_1_n_n none a w (constant S4000x128 .f32 0x00000000#32))
        (broadcastTo S4000x128 (shapeCast S1x128 b h1) h2)) (broadcast S4000x128 (Scalar.ofBits .f32 0x00000000#32)) (ix2 p q)
      = max (affine 256 128 (fun k => a (ix2 p k)) w b q) 0 := by
  refine (congrArg₂ (fun s t => max (s + t) (Scalar.ofBits (F := Ideal) .f32 0x00000000#32))
    (prod_a a w p q) (bias_at b h1 h2 p q)).trans ?_
  rw [zero_word]
  rfl

/-- The second layer and its max(., 0): rows of a hidden block against the second weight matrix, plus its bias. -/
theorem layer_b (a : FVec Ideal S4000x128 .bf16) (w : FVec Ideal S128x128 .bf16) (b : FVec Ideal S128 .f32)
    (h1 : S128.ShapeCasts S1x128) (h2 : S1x128.Broadcasts S4000x128) (p : Fin 4000) (q : Fin 128) :
    maximumf (addf (matmul dot_S4000x128_S128x128_S4000x128_1_0_0_1_n_n none a w (constant S4000x128 .f32 0x00000000#32))
        (broadcastTo S4000x128 (shapeCast S1x128 b h1) h2)) (broadcast S4000x128 (Scalar.ofBits .f32 0x00000000#32)) (ix2 p q)
      = max (affine 128 128 (fun k => a (ix2 p k)) w b q) 0 := by
  refine (congrArg₂ (fun s t => max (s + t) (Scalar.ofBits (F := Ideal) .f32 0x00000000#32))
    (prod_b a w p q) (bias_at b h1 h2 p q)).trans ?_
  rw [zero_word]
  rfl

/-- The unary layer: rows of a hidden block against the unary weight matrix, plus its bias. -/
theorem layer_c (a : FVec Ideal S4000x128 .bf16) (w : FVec Ideal S128x16 .bf16) (b : FVec Ideal S16 .f32)
    (h1 : S16.ShapeCasts S1x16) (h2 : S1x16.Broadcasts S4000x16) (p : Fin 4000) (q : Fin 16) :
    addf (matmul dot_S4000x128_S128x16_S4000x16_1_0_0_1_n_n none a w (constant S4000x16 .f32 0x00000000#32))
        (broadcastTo S4000x16 (shapeCast S1x16 b h1) h2) (ix2 p q)
      = affine 128 16 (fun k => a (ix2 p k)) w b q :=
  congrArg₂ (fun s t : EReal => s + t) (prod_c a w p q) (bias_at b h1 h2 p q)

/-! ## The three payloads -/

/-- The hidden block: row p of the block is the hidden row of the node whose features are row p of the feature
    block. -/
theorem pay_hidden (x0 : FVec Ideal S4000x256 .f32) (x1 : FVec Ideal S256x128 .f32) (x2 : FVec Ideal S128 .f32)
    (x3 : FVec Ideal S128x128 .f32) (x4 : FVec Ideal S128 .f32) (p : Fin 4000) (q : Fin 128) :
    k0_pay1 (F := Ideal) x0 x1 x2 x3 x4 (ix2 p q) = hiddenRow (fun l => x0 (ix2 p l)) x1 x2 x3 x4 q := by
  unfold k0_pay1
  rw [truncf_apply]
  refine (layer_b _ _ x4 _ _ p q).trans ?_
  unfold hiddenRow
  refine congrArg (fun f : Fin 128 → EReal => max (affine 128 128 f x3 x4 q) 0) (funext fun k => ?_)
  exact layer_a _ _ x2 _ _ p k

/-- The unary block: one more affine layer of the hidden block's row p. -/
theorem pay_unary (x0 : FVec Ideal S4000x256 .f32) (x1 : FVec Ideal S256x128 .f32) (x2 : FVec Ideal S128 .f32)
    (x3 : FVec Ideal S128x128 .f32) (x4 : FVec Ideal S128 .f32) (x5 : FVec Ideal S128x16 .f32) (x6 : FVec Ideal S16 .f32)
    (p : Fin 4000) (q : Fin 16) :
    k0_pay2 (F := Ideal) x0 x1 x2 x3 x4 x5 x6 (ix2 p q)
      = affine 128 16 (fun k => hiddenRow (fun l => x0 (ix2 p l)) x1 x2 x3 x4 k) x5 x6 q := by
  unfold k0_pay2
  refine (layer_c _ _ x6 _ _ p q).trans ?_
  refine congrArg (fun f : Fin 128 → EReal => affine 128 16 f x5 x6 q) (funext fun k => ?_)
  exact pay_hidden x0 x1 x2 x3 x4 p k

/-- The edge block: the parent rows' block against the top half of the edge matrix, plus the own rows' block against
    the bottom half, plus the bias. -/
theorem pay_edge (v0 v2 : FVec Ideal S4000x128 .bf16) (v4 v7 : FVec Ideal S128x256 .f32) (v13 : FVec Ideal S256 .f32)
    (p : Fin 4000) (q : Fin 256) :
    k1_pay1 (F := Ideal) v0 v2 v4 v7 v13 (ix2 p q)
      = edgeHalves (fun k => v0 (ix2 p k)) (fun k => v2 (ix2 p k)) v4 v7 v13 q := by
  unfold k1_pay1
  rw [shapeCast_self v0, shapeCast_self v2, shapeCast_self v4, shapeCast_self v7]
  refine (congrArg₂ (fun s t : EReal => s + t)
    (congrArg₂ (fun s t : EReal => s + t) (prod_d v0 _ p q) (prod_d v2 _ p q)) (bias_at v13 _ _ p q)).trans ?_
  rfl

end Cert.KernelIdeal.Payload

end
-- ==== Proof.Stage1Array.lean ====
/-
  The first launch, from blocks to arrays.

  The grid has 100 points; point t works on rows 4000 t .. 4000 t + 3999.  Its feature block is those rows of the
  feature array; every weight and bias block is the whole array (block index 0 on every axis); its two output blocks
  are written back to those same rows of the hidden array and of the unary array.  Each body is row-wise, so what
  point t writes back is rows 4000 t .. 4000 t + 3999 of ONE function of the whole input arrays; the 100 row ranges
  cover all 400000 rows (row r lies in the range of point r / 4000); hence each output array ends holding that
  function.  Stated for any contents V of the buffers at the launch's entry.
-/
import proofs.«100820_j17549236372232_1_alg».proof.Proof.Gen.KernelIdeal.Frame
import proofs.«100820_j17549236372232_1_alg».proof.Proof.Payload
import Idealize.ShloMosaic.Lib.Pipeline.Value

set_option maxRecDepth 16384

noncomputable section

namespace Cert.KernelIdeal.Stage1

open Idealize.ShloMosaic Idealize.ShloMosaic.TcCoe Idealize.ShloMosaic.ValueIdx Idealize.SL.Sem
open Cert.KernelIdeal Cert.KernelIdeal.Gen Cert.KernelIdeal.Payload Cert.TreePotentials
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The block index maps, decided over the grid: the feature window and the two output windows are at block (t, 0);
    every weight and bias window is at block 0 on every axis. -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 :=
  (by decide +kernel : ∀ t : Fin grid0.N, _)

/-! ## The input blocks, read where the arrays say -/

/-- Row p of point t's feature block is row 4000 t + p of the feature array (here: the row of the hidden output
    block's image of (p, .)). -/
theorem feat_row (c : Dev nD) (t : Fin cfg0.N) (j : S4000x128.Idx) (l : Fin 256) :
    iblk0 V c 0 t (ix2 (j 0) l) = V c main_arg0 (ix2 ((((cfg0.win 7).blk t).view.emb j) 0) l) := by
  obtain ⟨e00, e01, e70, e71, -⟩ := idx_facts t
  show V c main_arg0 (((cfg0.win 0).blk t).view.emb (ix2 (j 0) l)) = _
  refine congrArg (V c main_arg0) (funext fun a => Fin.ext ?_)
  match a with
  | ⟨0, _⟩ =>
    show win0_0.index t (0 : Fin 2) * 4000 + 1 * (j 0).val = win0_7.index t (0 : Fin 2) * 4000 + 1 * (j 0).val
    omega
  | ⟨1, _⟩ =>
    show win0_0.index t (1 : Fin 2) * 256 + 1 * l.val = l.val
    omega

/-- The same against the unary output block's rows. -/
theorem feat_row' (c : Dev nD) (t : Fin cfg0.N) (j : S4000x16.Idx) (l : Fin 256) :
    iblk0 V c 0 t (ix2 (j 0) l) = V c main_arg0 (ix2 ((((cfg0.win 8).blk t).view.emb j) 0) l) := by
  obtain ⟨e00, e01, -, -, e80, e81, -⟩ := idx_facts t
  show V c main_arg0 (((cfg0.win 0).blk t).view.emb (ix2 (j 0) l)) = _
  refine congrArg (V c main_arg0) (funext fun a => Fin.ext ?_)
  match a with
  | ⟨0, _⟩ =>
    show win0_0.index t (0 : Fin 2) * 4000 + 1 * (j 0).val = win0_8.index t (0 : Fin 2) * 4000 + 1 * (j 0).val
    omega
  | ⟨1, _⟩ =>
    show win0_0.index t (1 : Fin 2) * 256 + 1 * l.val = l.val
    omega

/-- Each weight or bias block is its whole array. -/
theorem whole_1 (c : Dev nD) (t : Fin cfg0.N) : iblk0 V c 1 t = V c main_arg2 := by
  obtain ⟨-, -, -, -, -, -, e0, e1, -⟩ := idx_facts t
  funext y
  show V c main_arg2 (((cfg0.win 1).blk t).view.emb y) = _
  refine congrArg (V c main_arg2) (funext fun a => Fin.ext ?_)
  match a with
  | ⟨0, _⟩ => show win0_1.index t (0 : Fin 2) * 256 + 1 * (y 0).val = (y 0).val; omega
  | ⟨1, _⟩ => show win0_1.index t (1 : Fin 2) * 128 + 1 * (y 1).val = (y 1).val; omega
theorem whole_2 (c : Dev nD) (t : Fin cfg0.N) : iblk0 V c 2 t = V c main_arg3 := by
  obtain ⟨-, -, -, -, -, -, -, -, e0, -⟩ := idx_facts t
  funext y
  show V c main_arg3 (((cfg0.win 2).blk t).view.emb y) = _
  refine congrArg (V c main_arg3) (funext fun a => Fin.ext ?_)
  match a with
  | ⟨0, _⟩ => show win0_2.index t (0 : Fin 1) * 128 + 1 * (y 0).val = (y 0).val; omega
theorem whole_3 (c : Dev nD) (t : Fin cfg0.N) : iblk0 V c 3 t = V c main_arg4 := by
  obtain ⟨-, -, -, -, -, -, -, -, -, e0, e1, -⟩ := idx_facts t
  funext y
  show V c main_arg4 (((cfg0.win 3).blk t).view.emb y) = _
  refine congrArg (V c main_arg4) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega
theorem whole_4 (c : Dev nD) (t : Fin cfg0.N) : iblk0 V c 4 t = V c main_arg5 := by
  obtain ⟨-, -, -, -, -, -, -, -, -, -, -, e0, -⟩ := idx_facts t
  funext y
  show V c main_arg5 (((cfg0.win 4).blk t).view.emb y) = _
  refine congrArg (V c main_arg5) (funext fun a => Fin.ext ?_)
  match a with
  | ⟨0, _⟩ => show win0_4.index t (0 : Fin 1) * 128 + 1 * (y 0).val = (y 0).val; omega
theorem whole_5 (c : Dev nD) (t : Fin cfg0.N) : iblk0 V c 5 t = V c main_arg6 := by
  obtain ⟨-, -, -, -, -, -, -, -, -, -, -, -, e0, e1, -⟩ := idx_facts t
  funext y
  show V c main_arg6 (((cfg0.win 5).blk t).view.emb y) = _
  refine congrArg (V c main_arg6) (funext fun a => Fin.ext ?_)
  match a with
  | ⟨0, _⟩ => show win0_5.index t (0 : Fin 2) * 128 + 1 * (y 0).val = (y 0).val; omega
  | ⟨1, _⟩ => show win0_5.index t (1 : Fin 2) * 16 + 1 * (y 1).val = (y 1).val; omega
theorem whole_6 (c : Dev nD) (t : Fin cfg0.N) : iblk0 V c 6 t = V c main_arg7 := by
  obtain ⟨-, -, -, -, -, -, -, -, -, -, -, -, -, -, e0⟩ := idx_facts t
  funext y
  show V c main_arg7 (((cfg0.win 6).blk t).view.emb y) = _
  refine congrArg (V c main_arg7) (funext fun a => Fin.ext ?_)
  match a with
  | ⟨0, _⟩ => show win0_6.index t (0 : Fin 1) * 16 + 1 * (y 0).val = (y 0).val; omega

/-! ## What point t writes back -/

/-- The hidden array's spelling over the entry contents. -/
abbrev hiddenOf (c : Dev nD) : Mat 400000 128 :=
  hiddenArr (V c main_arg0) (V c main_arg2) (V c main_arg3) (V c main_arg4) (V c main_arg5)

/-- Point t writes back, to the hidden array, rows 4000 t .. 4000 t + 3999 of the hidden rows of all nodes. -/
theorem flushed_hidden (c : Dev nD) (t : Fin cfg0.N) :
    (dat0 V c).flushed 7 t = ((cfg0.win 7).blk t).view.read (Elt Ideal) (hiddenOf V c) := by
  show (cfg0.win 7).cut (grid0.coords t) ((dat0 V c).after 7 t) = _
  rw [after0_7]
  unfold out0_7
  rw [View.canon_unit_zero hz2]
  simp only [View.ld_unit_zero (S := S4000x256) hz2, View.ld_unit_zero (S := S256x128) hz2,
    View.ld_unit_zero (S := S128x128) hz2, View.ld_unit_zero (S := S128) hz1]
  rw [whole_1 V c t, whole_2 V c t, whole_3 V c t, whole_4 V c t]
  obtain ⟨-, -, e70, e71, -⟩ := idx_facts t
  funext j
  refine ((congrArg (k0_pay1 (F := Ideal) (iblk0 V c 0 t) (V c main_arg2) (V c main_arg3) (V c main_arg4) (V c main_arg5))
    (eq_ix2 j)).trans (pay_hidden (iblk0 V c 0 t) (V c main_arg2) (V c main_arg3) (V c main_arg4) (V c main_arg5) (j 0) (j 1))).trans ?_
  have hq : (((cfg0.win 7).blk t).view.emb j) 1 = j 1 := Fin.ext (by
    show win0_7.index t (1 : Fin 2) * 128 + 1 * (j 1).val = (j 1).val
    omega)
  show hiddenRow (fun l => iblk0 V c 0 t (ix2 (j 0) l)) (V c main_arg2) (V c main_arg3) (V c main_arg4) (V c main_arg5) (j 1)
    = hiddenRow (fun l => V c main_arg0 (ix2 ((((cfg0.win 7).blk t).view.emb j) 0) l)) (V c main_arg2) (V c main_arg3)
        (V c main_arg4) (V c main_arg5) ((((cfg0.win 7).blk t).view.emb j) 1)
  rw [hq]
  exact congrArg (fun f : Fin 256 → EReal => hiddenRow f (V c main_arg2) (V c main_arg3) (V c main_arg4) (V c main_arg5) (j 1))
    (funext fun l => feat_row V c t j l)

/-- Point t writes back, to the unary array, rows 4000 t .. 4000 t + 3999 of the unary potentials of all nodes. -/
theorem flushed_unary (c : Dev nD) (t : Fin cfg0.N) :
    (dat0 V c).flushed 8 t
      = ((cfg0.win 8).blk t).view.read (Elt Ideal) (unaryArr (hiddenOf V c) (V c main_arg6) (V c main_arg7)) := by
  show (cfg0.win 8).cut (grid0.coords t) ((dat0 V c).after 8 t) = _
  rw [after0_8]
  unfold out0_8
  rw [View.canon_unit_zero hz2]
  simp only [View.ld_unit_zero (S := S4000x256) hz2, View.ld_unit_zero (S := S256x128) hz2,
    View.ld_unit_zero (S := S128x128) hz2, View.ld_unit_zero (S := S128x16) hz2,
    View.ld_unit_zero (S := S128) hz1, View.ld_unit_zero (S := S16) hz1]
  rw [whole_1 V c t, whole_2 V c t, whole_3 V c t, whole_4 V c t, whole_5 V c t, whole_6 V c t]
  obtain ⟨-, -, -, -, e80, e81, -⟩ := idx_facts t
  funext j
  refine ((congrArg (k0_pay2 (F := Ideal) (iblk0 V c 0 t) (V c main_arg2) (V c main_arg3) (V c main_arg4) (V c main_arg5)
      (V c main_arg6) (V c main_arg7)) (eq_ix2 j)).trans
    (pay_unary (iblk0 V c 0 t) (V c main_arg2) (V c main_arg3) (V c main_arg4) (V c main_arg5) (V c main_arg6)
      (V c main_arg7) (j 0) (j 1))).trans ?_
  have hq : (((cfg0.win 8).blk t).view.emb j) 1 = j 1 := Fin.ext (by
    show win0_8.index t (1 : Fin 2) * 16 + 1 * (j 1).val = (j 1).val
    omega)
  show affine 128 16 (fun k => hiddenRow (fun l => iblk0 V c 0 t (ix2 (j 0) l)) (V c main_arg2) (V c main_arg3)
        (V c main_arg4) (V c main_arg5) k) (V c main_arg6) (V c main_arg7) (j 1)
    = affine 128 16 (fun k => hiddenRow (fun l => V c main_arg0 (ix2 ((((cfg0.win 8).blk t).view.emb j) 0) l))
        (V c main_arg2) (V c main_arg3) (V c main_arg4) (V c main_arg5) k) (V c main_arg6) (V c main_arg7)
        ((((cfg0.win 8).blk t).view.emb j) 1)
  rw [hq]
  exact congrArg (fun f : Fin 256 → EReal => affine 128 16 (fun k => hiddenRow f (V c main_arg2) (V c main_arg3)
      (V c main_arg4) (V c main_arg5) k) (V c main_arg6) (V c main_arg7) (j 1))
    (funext fun l => feat_row' V c t j l)

/-! ## The row ranges cover the arrays -/

theorem mem_blk7 (t : Fin cfg0.N) (i : S400000x128.Idx) :
    i ∈ ((cfg0.win 7).blk t).view.set
      ↔ ∀ a : Fin 2, win0_7.index t a * S4000x128.size a ≤ (i a).val
          ∧ (i a).val < win0_7.index t a * S4000x128.size a + S4000x128.size a := by
  show i ∈ ((View.whole main_v0_0).slice (win0_7.rect t)).set ↔ _
  rw [View.set_slice_whole, Rect.mem_set_unit]
  exact Iff.rfl

theorem mem_blk8 (t : Fin cfg0.N) (i : S400000x16.Idx) :
    i ∈ ((cfg0.win 8).blk t).view.set
      ↔ ∀ a : Fin 2, win0_8.index t a * S4000x16.size a ≤ (i a).val
          ∧ (i a).val < win0_8.index t a * S4000x16.size a + S4000x16.size a := by
  show i ∈ ((View.whole main_v0_1).slice (win0_8.rect t)).set ↔ _
  rw [View.set_slice_whole, Rect.mem_set_unit]
  exact Iff.rfl

/-- Row r of the hidden array is in the block of point r / 4000. -/
theorem cover7 (i : S400000x128.Idx) :
    ∃ t : Fin cfg0.N, (cfg0.win 7).flush t = true ∧ i ∈ ((cfg0.win 7).blk t).view.set := by
  have hi0 : (i 0).val < 400000 := (i 0).isLt
  have hi1 : (i 1).val < 128 := (i 1).isLt
  have ht : (i 0).val / 4000 < cfg0.N := by show (i 0).val / 4000 < 100; omega
  obtain ⟨-, -, e70, e71, -⟩ := idx_facts ⟨(i 0).val / 4000, ht⟩
  refine ⟨⟨(i 0).val / 4000, ht⟩, flush0_7 _, ?_⟩
  rw [mem_blk7]
  intro a
  match a with
  | ⟨0, _⟩ =>
    show win0_7.index ⟨(i 0).val / 4000, ht⟩ (0 : Fin 2) * 4000 ≤ (i 0).val
      ∧ (i 0).val < win0_7.index ⟨(i 0).val / 4000, ht⟩ (0 : Fin 2) * 4000 + 4000
    have e : win0_7.index ⟨(i 0).val / 4000, ht⟩ (0 : Fin 2) = (i 0).val / 4000 := e70
    omega
  | ⟨1, _⟩ =>
    show win0_7.index ⟨(i 0).val / 4000, ht⟩ (1 : Fin 2) * 128 ≤ (i 1).val
      ∧ (i 1).val < win0_7.index ⟨(i 0).val / 4000, ht⟩ (1 : Fin 2) * 128 + 128
    omega

/-- Row r of the unary array is in the block of point r / 4000. -/
theorem cover8 (i : S400000x16.Idx) :
    ∃ t : Fin cfg0.N, (cfg0.win 8).flush t = true ∧ i ∈ ((cfg0.win 8).blk t).view.set := by
  have hi0 : (i 0).val < 400000 := (i 0).isLt
  have hi1 : (i 1).val < 16 := (i 1).isLt
  have ht : (i 0).val / 4000 < cfg0.N := by show (i 0).val / 4000 < 100; omega
  obtain ⟨-, -, -, -, e80, e81, -⟩ := idx_facts ⟨(i 0).val / 4000, ht⟩
  refine ⟨⟨(i 0).val / 4000, ht⟩, flush0_8 _, ?_⟩
  rw [mem_blk8]
  intro a
  match a with
  | ⟨0, _⟩ =>
    show win0_8.index ⟨(i 0).val / 4000, ht⟩ (0 : Fin 2) * 4000 ≤ (i 0).val
      ∧ (i 0).val < win0_8.index ⟨(i 0).val / 4000, ht⟩ (0 : Fin 2) * 4000 + 4000
    have e : win0_8.index ⟨(i 0).val / 4000, ht⟩ (0 : Fin 2) = (i 0).val / 4000 := e80
    omega
  | ⟨1, _⟩ =>
    show win0_8.index ⟨(i 0).val / 4000, ht⟩ (1 : Fin 2) * 16 ≤ (i 1).val
      ∧ (i 1).val < win0_8.index ⟨(i 0).val / 4000, ht⟩ (1 : Fin 2) * 16 + 16
    omega

/-! ## The two output arrays after the launch -/

/-- The hidden array ends holding every node's hidden row. -/
theorem hidden_array (c : Dev nD) : (dat0 V c).arrAt 7 cfg0.N = hiddenOf V c :=
  (dat0 V c).arrAt_eq_of_cover 7 (hiddenOf V c) (fun t _ => flushed_hidden V c t) cover7

/-- The unary array ends holding every node's unary potentials. -/
theorem unary_array (c : Dev nD) :
    (dat0 V c).arrAt 8 cfg0.N = unaryArr (hiddenOf V c) (V c main_arg6) (V c main_arg7) :=
  (dat0 V c).arrAt_eq_of_cover 8 (unaryArr (hiddenOf V c) (V c main_arg6) (V c main_arg7))
    (fun t _ => flushed_unary V c t) cover8

end Cert.KernelIdeal.Stage1

end
-- ==== Proof.Stage2Array.lean ====
/-
  The second launch, from blocks to the edge array.

  Again 100 points, point t on rows 4000 t .. 4000 t + 3999: its two row blocks are those rows of the parents' hidden
  rows and of the nodes' own hidden rows; the two halves of the edge matrix and the edge bias are whole arrays; the
  output block goes back to those rows of the edge array.  The body is row-wise, the row ranges cover all 400000
  rows, so the edge array ends holding the two half-contractions added, plus the bias, of the whole input arrays.
  Stated for any contents V of the buffers at the launch's entry.
-/
import proofs.«100820_j17549236372232_1_alg».proof.Proof.Gen.KernelIdeal.Frame
import proofs.«100820_j17549236372232_1_alg».proof.Proof.Payload
import Idealize.ShloMosaic.Lib.Pipeline.Value

set_option maxRecDepth 16384

noncomputable section

namespace Cert.KernelIdeal.Stage2

open Idealize.ShloMosaic Idealize.ShloMosaic.TcCoe Idealize.ShloMosaic.ValueIdx Idealize.SL.Sem
open Cert.KernelIdeal Cert.KernelIdeal.Gen Cert.KernelIdeal.Payload Cert.TreePotentials
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The block index maps, decided over the grid: the two row windows and the output window are at block (t, 0); the
    two matrix halves and the bias are at block 0 on every axis. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_5.index t (0 : Fin 2) = t.val ∧ win1_5.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0 :=
  (by decide +kernel : ∀ t : Fin grid1.N, _)

/-! ## The input blocks, read where the arrays say -/

/-- Row p of point t's block of parents' hidden rows is row 4000 t + p of that array. -/
theorem parent_row (c : Dev nD) (t : Fin cfg1.N) (j : S4000x256.Idx) (k : Fin 128) :
    iblk1 V c 0 t (ix2 (j 0) k) = V c main_v7 (ix2 ((((cfg1.win 5).blk t).view.emb j) 0) k) := by
  obtain ⟨e00, e01, -, -, e50, e51, -⟩ := idx_facts t
  show V c main_v7 (((cfg1.win 0).blk t).view.emb (ix2 (j 0) k)) = _
  refine congrArg (V c main_v7) (funext fun a => Fin.ext ?_)
  match a with
  | ⟨0, _⟩ =>
    show win1_0.index t (0 : Fin 2) * 4000 + 1 * (j 0).val = win1_5.index t (0 : Fin 2) * 4000 + 1 * (j 0).val
    omega
  | ⟨1, _⟩ =>
    show win1_0.index t (1 : Fin 2) * 128 + 1 * k.val = k.val
    omega

/-- Row p of point t's block of own hidden rows is row 4000 t + p of that array. -/
theorem own_row (c : Dev nD) (t : Fin cfg1.N) (j : S4000x256.Idx) (k : Fin 128) :
    iblk1 V c 1 t (ix2 (j 0) k) = V c main_v0_0 (ix2 ((((cfg1.win 5).blk t).view.emb j) 0) k) := by
  obtain ⟨-, -, e10, e11, e50, e51, -⟩ := idx_facts t
  show V c main_v0_0 (((cfg1.win 1).blk t).view.emb (ix2 (j 0) k)) = _
  refine congrArg (V c main_v0_0) (funext fun a => Fin.ext ?_)
  match a with
  | ⟨0, _⟩ =>
    show win1_1.index t (0 : Fin 2) * 4000 + 1 * (j 0).val = win1_5.index t (0 : Fin 2) * 4000 + 1 * (j 0).val
    omega
  | ⟨1, _⟩ =>
    show win1_1.index t (1 : Fin 2) * 128 + 1 * k.val = k.val
    omega

/-- Each matrix half and the bias block is its whole array. -/
theorem whole_2 (c : Dev nD) (t : Fin cfg1.N) : iblk1 V c 2 t = V c main_v8 := by
  obtain ⟨-, -, -, -, -, -, e0, e1, -⟩ := idx_facts t
  funext y
  show V c main_v8 (((cfg1.win 2).blk t).view.emb y) = _
  refine congrArg (V c main_v8) (funext fun a => Fin.ext ?_)
  match a with
  | ⟨0, _⟩ => show win1_2.index t (0 : Fin 2) * 128 + 1 * (y 0).val = (y 0).val; omega
  | ⟨1, _⟩ => show win1_2.index t (1 : Fin 2) * 256 + 1 * (y 1).val = (y 1).val; omega
theorem whole_3 (c : Dev nD) (t : Fin cfg1.N) : iblk1 V c 3 t = V c main_v9 := by
  obtain ⟨-, -, -, -, -, -, -, -, e0, e1, -⟩ := idx_facts t
  funext y
  show V c main_v9 (((cfg1.win 3).blk t).view.emb y) = _
  refine congrArg (V c main_v9) (funext fun a => Fin.ext ?_)
  match a with
  | ⟨0, _⟩ => show win1_3.index t (0 : Fin 2) * 128 + 1 * (y 0).val = (y 0).val; omega
  | ⟨1, _⟩ => show win1_3.index t (1 : Fin 2) * 256 + 1 * (y 1).val = (y 1).val; omega
theorem whole_4 (c : Dev nD) (t : Fin cfg1.N) : iblk1 V c 4 t = V c main_arg9 := by
  obtain ⟨-, -, -, -, -, -, -, -, -, -, e0⟩ := idx_facts t
  funext y
  show V c main_arg9 (((cfg1.win 4).blk t).view.emb y) = _
  refine congrArg (V c main_arg9) (funext fun a => Fin.ext ?_)
  match a with
  | ⟨0, _⟩ => show win1_4.index t (0 : Fin 1) * 256 + 1 * (y 0).val = (y 0).val; omega

/-! ## What point t writes back -/

/-- The edge array's spelling over the entry contents. -/
abbrev edgeOf (c : Dev nD) : Mat 400000 256 :=
  edgeArr (V c main_v7) (V c main_v0_0) (V c main_v8) (V c main_v9) (V c main_arg9)

/-- Point t writes back, to the edge array, rows 4000 t .. 4000 t + 3999 of the edge potentials of all nodes. -/
theorem flushed_edge (c : Dev nD) (t : Fin cfg1.N) :
    (dat1 V c).flushed 5 t = ((cfg1.win 5).blk t).view.read (Elt Ideal) (edgeOf V c) := by
  show (cfg1.win 5).cut (grid1.coords t) ((dat1 V c).after 5 t) = _
  rw [after1_5]
  unfold out1_5
  rw [View.canon_unit_zero hz2]
  simp only [View.ld_unit_zero (S := S4000x128) hz2, View.ld_unit_zero (S := S128x256) hz2,
    View.ld_unit_zero (S := S256) hz1]
  rw [whole_2 V c t, whole_3 V c t, whole_4 V c t]
  obtain ⟨-, -, -, -, e50, e51, -⟩ := idx_facts t
  funext j
  refine ((congrArg (k1_pay1 (F := Ideal) (iblk1 V c 0 t) (iblk1 V c 1 t) (V c main_v8) (V c main_v9) (V c main_arg9))
    (eq_ix2 j)).trans (pay_edge (iblk1 V c 0 t) (iblk1 V c 1 t) (V c main_v8) (V c main_v9) (V c main_arg9) (j 0) (j 1))).trans ?_
  have hq : (((cfg1.win 5).blk t).view.emb j) 1 = j 1 := Fin.ext (by
    show win1_5.index t (1 : Fin 2) * 256 + 1 * (j 1).val = (j 1).val
    omega)
  show edgeHalves (fun k => iblk1 V c 0 t (ix2 (j 0) k)) (fun k => iblk1 V c 1 t (ix2 (j 0) k)) (V c main_v8) (V c main_v9)
        (V c main_arg9) (j 1)
    = edgeHalves (fun k => V c main_v7 (ix2 ((((cfg1.win 5).blk t).view.emb j) 0) k))
        (fun k => V c main_v0_0 (ix2 ((((cfg1.win 5).blk t).view.emb j) 0) k)) (V c main_v8) (V c main_v9) (V c main_arg9)
        ((((cfg1.win 5).blk t).view.emb j) 1)
  rw [hq]
  exact congrArg₂ (fun f g : Fin 128 → EReal => edgeHalves f g (V c main_v8) (V c main_v9) (V c main_arg9) (j 1))
    (funext fun k => parent_row V c t j k) (funext fun k => own_row V c t j k)

/-! ## The row ranges cover the array -/

theorem mem_blk5 (t : Fin cfg1.N) (i : S400000x256.Idx) :
    i ∈ ((cfg1.win 5).blk t).view.set
      ↔ ∀ a : Fin 2, win1_5.index t a * S4000x256.size a ≤ (i a).val
          ∧ (i a).val < win1_5.index t a * S4000x256.size a + S4000x256.size a := by
  show i ∈ ((View.whole main_v10).slice (win1_5.rect t)).set ↔ _
  rw [View.set_slice_whole, Rect.mem_set_unit]
  exact Iff.rfl

/-- Row r of the edge array is in the block of point r / 4000. -/
theorem cover5 (i : S400000x256.Idx) :
    ∃ t : Fin cfg1.N, (cfg1.win 5).flush t = true ∧ i ∈ ((cfg1.win 5).blk t).view.set := by
  have hi0 : (i 0).val < 400000 := (i 0).isLt
  have hi1 : (i 1).val < 256 := (i 1).isLt
  have ht : (i 0).val / 4000 < cfg1.N := by show (i 0).val / 4000 < 100; omega
  obtain ⟨-, -, -, -, e50, e51, -⟩ := idx_facts ⟨(i 0).val / 4000, ht⟩
  refine ⟨⟨(i 0).val / 4000, ht⟩, flush1_5 _, ?_⟩
  rw [mem_blk5]
  intro a
  match a with
  | ⟨0, _⟩ =>
    show win1_5.index ⟨(i 0).val / 4000, ht⟩ (0 : Fin 2) * 4000 ≤ (i 0).val
      ∧ (i 0).val < win1_5.index ⟨(i 0).val / 4000, ht⟩ (0 : Fin 2) * 4000 + 4000
    have e : win1_5.index ⟨(i 0).val / 4000, ht⟩ (0 : Fin 2) = (i 0).val / 4000 := e50
    omega
  | ⟨1, _⟩ =>
    show win1_5.index ⟨(i 0).val / 4000, ht⟩ (1 : Fin 2) * 256 ≤ (i 1).val
      ∧ (i 1).val < win1_5.index ⟨(i 0).val / 4000, ht⟩ (1 : Fin 2) * 256 + 256
    omega

/-! ## The output array after the launch -/

/-- The edge array ends holding every node's edge potentials, in the two-halves form, of the entry contents. -/
theorem edge_array (c : Dev nD) : (dat1 V c).arrAt 5 cfg1.N = edgeOf V c :=
  (dat1 V c).arrAt_eq_of_cover 5 (edgeOf V c) (fun t _ => flushed_edge V c t) cover5

end Cert.KernelIdeal.Stage2

end
-- ==== Proof.KernelFold.lean ====
/-
  The result buffer at the program's end, read back to the arguments.

  The program is: first launch; a stretch of host operations (the parent indices normalised and gathered from the
  hidden array, the edge matrix cut into its top and bottom halves); second launch; one host operation, the unary
  and edge arrays laid side by side.  Reading the buffer contents boundary by boundary backwards: the result is the
  concatenation of the unary array (left as the first launch wrote it: nothing after touches it) and the edge array
  as the second launch wrote it; the second launch's inputs are the gathered hidden rows, the hidden array itself
  (untouched by the host stretch), the two halves of the edge matrix and the edge bias; the first launch's arrays
  are the hidden rows and unary potentials of the argument arrays.
-/
import proofs.«100820_j17549236372232_1_alg».proof.Proof.Gen.KernelIdeal.Frame
import proofs.«100820_j17549236372232_1_alg».proof.Proof.Stage1Array
import proofs.«100820_j17549236372232_1_alg».proof.Proof.Stage2Array
import Idealize.ShloMosaic.Lib.StableHlo.Run

set_option maxRecDepth 16384

noncomputable section

namespace Cert.KernelIdeal.Fold

open Idealize.ShloMosaic Idealize.ShloMosaic.TcCoe Idealize.ShloMosaic.ValueIdx Idealize.SL.Sem
open Idealize.ShloMosaic.StableHlo
open Cert.KernelIdeal Cert.KernelIdeal.Gen Cert.TreePotentials

variable (m : (ℓ : Loc nD τ sig) → Buf (Elt Ideal) ℓ) (ρ : Dev nD → PrngReg)

/-- The parent indices as the gather reads them: a negative index moved up by the number of rows, then one index
    per row as a column. -/
def parentIdx (par : IVec S400000 32) : IVec S400000x1 32 :=
  broadcastInDim S400000x1 ![0] bcast_S400000_S400000x1_0
    (select (cmpi .slt par (broadcastInDim S400000 ![] bcast_S_S400000 (constantI S_ 32 0#32)))
      (addi par (broadcastInDim S400000 ![] bcast_S_S400000 (constantI S_ 32 400000#32))) par)

/-- Every node's hidden row, of the argument arrays. -/
abbrev hiddenM (c : Dev nD) : Mat 400000 128 :=
  hiddenArr (m ((c : Thread nD τ).loc main_arg0)) (m ((c : Thread nD τ).loc main_arg2))
    (m ((c : Thread nD τ).loc main_arg3)) (m ((c : Thread nD τ).loc main_arg4)) (m ((c : Thread nD τ).loc main_arg5))

/-! ## After the first launch -/

theorem W1_hidden (c : Dev nD) : W1 m ρ c (Proc.devRef .tc main_v0_0) = hiddenM m c :=
  (W1_arr m ρ c 7).trans (Stage1.hidden_array (V0 m ρ) c)

theorem W1_unary (c : Dev nD) :
    W1 m ρ c (Proc.devRef .tc main_v0_1)
      = unaryArr (hiddenM m c) (m ((c : Thread nD τ).loc main_arg6)) (m ((c : Thread nD τ).loc main_arg7)) :=
  (W1_arr m ρ c 8).trans (Stage1.unary_array (V0 m ρ) c)

theorem W1_parent (c : Dev nD) : W1 m ρ c (Proc.devRef .tc main_arg1) = m ((c : Thread nD τ).loc main_arg1) :=
  W1_of_ne m ρ c main_arg1 (by decide)
theorem W1_edgeMat (c : Dev nD) : W1 m ρ c (Proc.devRef .tc main_arg8) = m ((c : Thread nD τ).loc main_arg8) :=
  W1_of_ne m ρ c main_arg8 (by decide)
theorem W1_edgeBias (c : Dev nD) : W1 m ρ c (Proc.devRef .tc main_arg9) = m ((c : Thread nD τ).loc main_arg9) :=
  W1_of_ne m ρ c main_arg9 (by decide)

/-! ## After the host stretch between the launches -/

theorem W2_gathered (c : Dev nD) :
    W2 m ρ c (Proc.devRef .tc main_v7)
      = Host.gather gather_S400000x128_S400000x1_S400000x128_1_0_n_n_0_1_1128 (W1 m ρ c (Proc.devRef .tc main_v0_0))
          (parentIdx (W1 m ρ c (Proc.devRef .tc main_arg1))) := by
  show StableHlo.after hostOps1 (W1 m ρ c) (Proc.devRef .tc main_v7) = _
  after_results
  rfl

theorem W2_hidden (c : Dev nD) : W2 m ρ c (Proc.devRef .tc main_v0_0) = W1 m ρ c (Proc.devRef .tc main_v0_0) := by
  show StableHlo.after hostOps1 (W1 m ρ c) (Proc.devRef .tc main_v0_0) = _
  after_results

theorem W2_unary (c : Dev nD) : W2 m ρ c (Proc.devRef .tc main_v0_1) = W1 m ρ c (Proc.devRef .tc main_v0_1) := by
  show StableHlo.after hostOps1 (W1 m ρ c) (Proc.devRef .tc main_v0_1) = _
  after_results

theorem W2_top (c : Dev nD) :
    W2 m ρ c (Proc.devRef .tc main_v8)
      = extractStridedSlice S128x256 ![0, 0] (W1 m ρ c (Proc.devRef .tc main_arg8)) slices_S256x256_S128x256_0_0 := by
  show StableHlo.after hostOps1 (W1 m ρ c) (Proc.devRef .tc main_v8) = _
  after_results

theorem W2_bot (c : Dev nD) :
    W2 m ρ c (Proc.devRef .tc main_v9)
      = extractStridedSlice S128x256 ![128, 0] (W1 m ρ c (Proc.devRef .tc main_arg8)) slices_S256x256_S128x256_128_0 := by
  show StableHlo.after hostOps1 (W1 m ρ c) (Proc.devRef .tc main_v9) = _
  after_results

theorem W2_edgeBias (c : Dev nD) : W2 m ρ c (Proc.devRef .tc main_arg9) = W1 m ρ c (Proc.devRef .tc main_arg9) := by
  show StableHlo.after hostOps1 (W1 m ρ c) (Proc.devRef .tc main_arg9) = _
  after_results

/-! ## After the second launch -/

theorem W3_edge (c : Dev nD) :
    W3 m ρ c (Proc.devRef .tc main_v10)
      = edgeArr (W2 m ρ c (Proc.devRef .tc main_v7)) (W2 m ρ c (Proc.devRef .tc main_v0_0))
          (W2 m ρ c (Proc.devRef .tc main_v8)) (W2 m ρ c (Proc.devRef .tc main_v9)) (W2 m ρ c (Proc.devRef .tc main_arg9)) :=
  (W3_arr m ρ c 5).trans (Stage2.edge_array (V2 m ρ) c)

theorem W3_unary (c : Dev nD) : W3 m ρ c (Proc.devRef .tc main_v0_1) = W2 m ρ c (Proc.devRef .tc main_v0_1) :=
  W3_of_ne m ρ c main_v0_1 (by decide)

/-! ## The result -/

/-- The top and bottom halves of the edge matrix. -/
abbrev topHalf (c : Dev nD) : Mat 128 256 :=
  extractStridedSlice S128x256 ![0, 0] (m ((c : Thread nD τ).loc main_arg8)) slices_S256x256_S128x256_0_0
abbrev botHalf (c : Dev nD) : Mat 128 256 :=
  extractStridedSlice S128x256 ![128, 0] (m ((c : Thread nD τ).loc main_arg8)) slices_S256x256_S128x256_128_0

/-- The edge array at the program's end, of the argument arrays. -/
theorem edge_value (c : Dev nD) :
    W3 m ρ c (Proc.devRef .tc main_v10)
      = edgeArr (Host.gather gather_S400000x128_S400000x1_S400000x128_1_0_n_n_0_1_1128 (hiddenM m c)
            (parentIdx (m ((c : Thread nD τ).loc main_arg1))))
          (hiddenM m c) (topHalf m c) (botHalf m c) (m ((c : Thread nD τ).loc main_arg9)) := by
  rw [W3_edge, W2_gathered, W2_hidden, W2_top, W2_bot, W2_edgeBias, W1_hidden, W1_parent, W1_edgeMat, W1_edgeBias]

/-- The unary array at the program's end, of the argument arrays. -/
theorem unary_value (c : Dev nD) :
    W3 m ρ c (Proc.devRef .tc main_v0_1)
      = unaryArr (hiddenM m c) (m ((c : Thread nD τ).loc main_arg6)) (m ((c : Thread nD τ).loc main_arg7)) := by
  rw [W3_unary, W2_unary, W1_unary]

/-- The result buffer at the program's end: the unary and edge arrays side by side. -/
theorem result_value (c : Dev nD) :
    W4 m ρ c (Proc.devRef .tc main_v11)
      = concatenate S400000x272 1
          [⟨S400000x16, unaryArr (hiddenM m c) (m ((c : Thread nD τ).loc main_arg6)) (m ((c : Thread nD τ).loc main_arg7))⟩,
           ⟨S400000x256, edgeArr (Host.gather gather_S400000x128_S400000x1_S400000x128_1_0_n_n_0_1_1128 (hiddenM m c)
              (parentIdx (m ((c : Thread nD τ).loc main_arg1))))
            (hiddenM m c) (topHalf m c) (botHalf m c) (m ((c : Thread nD τ).loc main_arg9))⟩]
          concatenates_S400000x16_S400000x256_S400000x272_d1 := by
  have h : W4 m ρ c (Proc.devRef .tc main_v11)
      = concatenate S400000x272 1 [⟨S400000x16, W3 m ρ c (Proc.devRef .tc main_v0_1)⟩,
          ⟨S400000x256, W3 m ρ c (Proc.devRef .tc main_v10)⟩] concatenates_S400000x16_S400000x256_S400000x272_d1 := by
    show StableHlo.after hostOps2 (W3 m ρ c) (Proc.devRef .tc main_v11) = _
    after_results
  rw [h, unary_value, edge_value]

end Cert.KernelIdeal.Fold

end
-- ==== Proof.SplitLaw.lean ====
/-
  The one law that joins the two programs' edge potentials.

  Lay two rows p and h of 128 entries end to end into a row of 256, and contract it against a 256 x 256 matrix whose
  first 128 rows are Wt and last 128 rows Wb: the sum over the 256 shared indices splits at 128 into the contraction
  of p against Wt plus the contraction of h against Wb.  Nothing but the splitting of a finite sum in an additive
  commutative monoid is used, so the law holds for every extended-real entry, the infinities included.
-/
import proofs.«100820_j17549236372232_1_alg».proof.Proof.Spec

noncomputable section

namespace Cert.TreePotentials

open Idealize.ShloMosaic Idealize.ShloMosaic.ValueIdx

/-- An affine layer of the joined row against the whole matrix is the two half-contractions added, plus the bias. -/
theorem affine_joined (cat : Fin 256 → EReal) (W : Mat 256 256) (p h : Fin 128 → EReal) (Wt Wb : Mat 128 256)
    (be : Row 256) (q : Fin 256)
    (hp : ∀ k : Fin 128, cat ⟨k.val, by omega⟩ = p k)
    (hh : ∀ k : Fin 128, cat ⟨128 + k.val, by omega⟩ = h k)
    (ht : ∀ k : Fin 128, W (ix2 (⟨k.val, by omega⟩ : Fin 256) q) = Wt (ix2 k q))
    (hb : ∀ k : Fin 128, W (ix2 (⟨128 + k.val, by omega⟩ : Fin 256) q) = Wb (ix2 k q)) :
    affine 256 256 cat W be q = edgeHalves p h Wt Wb be q := by
  unfold affine edgeHalves
  rw [sum_split_128 (fun k => cat k * W (ix2 k q))]
  refine congrArg (· + be (ix1 q)) (congrArg₂ (· + ·) (Finset.sum_congr rfl fun k _ => ?_) (Finset.sum_congr rfl fun k _ => ?_))
  · show cat ⟨k.val, _⟩ * W (ix2 ⟨k.val, _⟩ q) = p k * Wt (ix2 k q)
    rw [hp k, ht k]
  · show cat ⟨128 + k.val, _⟩ * W (ix2 ⟨128 + k.val, _⟩ q) = h k * Wb (ix2 k q)
    rw [hh k, hb k]

end Cert.TreePotentials

end
-- ==== Proof.RefValue.lean ====
/-
  The reference program's stages, read as the same row-wise arithmetic.

  Its hidden array is two products with bias and max(., 0), node by node: every node's hidden row.  Its unary array
  is one more affine layer of the hidden rows.  Its edge array contracts, for each node, the row made of the gathered
  parent's hidden row followed by the node's own against the whole 256 x 256 edge matrix, and adds the bias: by the
  splitting law that is the two half-contractions added.  The gather is never opened: it is the same function of
  the hidden array and the index array in both programs.
-/
import proofs.«100820_j17549236372232_1_alg».proof.Proof.Gen.ReferenceIdeal.Read
import proofs.«100820_j17549236372232_1_alg».proof.Proof.SplitLaw
import Idealize.ShloMosaic.Lib.ValueLayout
import Idealize.ShloMosaic.Lib.Pipeline.Value

noncomputable section

namespace Cert.ReferenceIdeal.RefValue

open Idealize.ShloMosaic Idealize.ShloMosaic.ValueIdx
open Cert.ReferenceIdeal Cert.ReferenceIdeal.Gen Cert.ReferenceIdeal.Read Cert.TreePotentials

/-- The zero word denotes zero. -/
theorem zero_word : FloatOps.ofBits (F := Ideal) .f32 0x00000000#32 = (0 : EReal) := Ideal.ofBits_zero_f32

variable (x0 : (⟨S400000x256, .f32⟩ : BufTy).Contents (Elt Ideal)) (x1 : (⟨S400000, .i32⟩ : BufTy).Contents (Elt Ideal))
  (x2 : (⟨S256x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x16, .f32⟩ : BufTy).Contents (Elt Ideal)) (x7 : (⟨S16, .f32⟩ : BufTy).Contents (Elt Ideal))
  (x8 : (⟨S256x256, .f32⟩ : BufTy).Contents (Elt Ideal)) (x9 : (⟨S256, .f32⟩ : BufTy).Contents (Elt Ideal))

/-- The second max(., 0) stage is every node's hidden row. -/
theorem ref_hidden : val_main_v9 (F := Ideal) x0 x2 x3 x4 x5 = hiddenArr x0 x2 x3 x4 x5 := by
  funext i
  simp only [val_main_v9_apply, val_main_v8_apply, val_main_v5_apply, val_main_v7_apply, val_main_v6_apply,
    val_main_call1_v0_apply, val_main_call1_cst_apply, val_main_v4_apply, val_main_v3_apply, val_main_v0_apply,
    val_main_v2_apply, val_main_v1_apply, val_main_call0_v0_apply, val_main_call0_cst_apply]
  have e1 : ∀ (k : Fin 128) (l : Fin 256), lidx_main_v0 (lidx_main_v5 i k) l = ix2 (i 0) l := fun k l =>
    funext fun a => Fin.ext (by match a with | ⟨0, _⟩ => rfl | ⟨1, _⟩ => rfl)
  have e2 : ∀ (k : Fin 128) (l : Fin 256), ridx_main_v0 (lidx_main_v5 i k) l = ix2 l k := fun k l =>
    funext fun a => Fin.ext (by match a with | ⟨0, _⟩ => rfl | ⟨1, _⟩ => rfl)
  have e3 : ∀ k : Fin 128, idx_main_v1 (idx_main_v2 (lidx_main_v5 i k)) = ix1 k := fun k =>
    funext fun a => Fin.ext (by match a with | ⟨0, _⟩ => rfl)
  have e4 : ∀ k : Fin 128, ridx_main_v5 i k = ix2 k (i 1) := fun k =>
    funext fun a => Fin.ext (by match a with | ⟨0, _⟩ => rfl | ⟨1, _⟩ => rfl)
  have e5 : idx_main_v6 (idx_main_v7 i) = ix1 (i 1) :=
    funext fun a => Fin.ext (by match a with | ⟨0, _⟩ => rfl)
  simp only [e1, e2, e3, e4, e5, zero_word]
  rfl

/-- The unary stage is every node's unary potentials. -/
theorem ref_unary :
    val_main_v13 (F := Ideal) x0 x2 x3 x4 x5 x6 x7 = unaryArr (hiddenArr x0 x2 x3 x4 x5) x6 x7 := by
  funext i
  simp only [val_main_v13_apply, val_main_v10_apply, val_main_v12_apply, val_main_v11_apply, ref_hidden]
  have e1 : ∀ k : Fin 128, lidx_main_v10 i k = ix2 (i 0) k := fun k =>
    funext fun a => Fin.ext (by match a with | ⟨0, _⟩ => rfl | ⟨1, _⟩ => rfl)
  have e2 : ∀ k : Fin 128, ridx_main_v10 i k = ix2 k (i 1) := fun k =>
    funext fun a => Fin.ext (by match a with | ⟨0, _⟩ => rfl | ⟨1, _⟩ => rfl)
  have e3 : idx_main_v11 (idx_main_v12 i) = ix1 (i 1) :=
    funext fun a => Fin.ext (by match a with | ⟨0, _⟩ => rfl)
  simp only [e1, e2, e3]
  rfl

/-- The gathered stage is the gather of the hidden rows. -/
theorem ref_gathered :
    val_main_v20 (F := Ideal) x0 x1 x2 x3 x4 x5
      = Host.gather gather_S400000x128_S400000x1_S400000x128_1_0_n_n_0_1_1128 (hiddenArr x0 x2 x3 x4 x5)
          (val_main_v19 (F := Ideal) x1) := by
  unfold val_main_v20
  rw [ref_hidden]

/-- The edge stage is every node's edge potentials in the two-halves form, for the two halves of the edge matrix cut
    out as row ranges 0 .. 127 and 128 .. 255. -/
theorem ref_edge (hT : (⟨2, ![256, 256]⟩ : Shape).Slices ![0, 0] ⟨2, ![128, 256]⟩)
    (hB : (⟨2, ![256, 256]⟩ : Shape).Slices ![128, 0] ⟨2, ![128, 256]⟩) :
    val_main_v25 (F := Ideal) x0 x1 x2 x3 x4 x5 x8 x9
      = edgeArr (val_main_v20 (F := Ideal) x0 x1 x2 x3 x4 x5) (hiddenArr x0 x2 x3 x4 x5)
          (extractStridedSlice ⟨2, ![128, 256]⟩ ![0, 0] x8 hT) (extractStridedSlice ⟨2, ![128, 256]⟩ ![128, 0] x8 hB) x9 := by
  funext i
  simp only [val_main_v25_apply, val_main_v22_apply, val_main_v24_apply, val_main_v23_apply]
  have e1 : ∀ k : Fin 256, lidx_main_v22 i k = ix2 (i 0) k := fun k =>
    funext fun a => Fin.ext (by match a with | ⟨0, _⟩ => rfl | ⟨1, _⟩ => rfl)
  have e2 : ∀ k : Fin 256, ridx_main_v22 i k = ix2 k (i 1) := fun k =>
    funext fun a => Fin.ext (by match a with | ⟨0, _⟩ => rfl | ⟨1, _⟩ => rfl)
  have e3 : idx_main_v23 (idx_main_v24 i) = ix1 (i 1) :=
    funext fun a => Fin.ext (by match a with | ⟨0, _⟩ => rfl)
  simp only [e1, e2, e3]
  refine affine_joined (fun k => val_main_v21 (F := Ideal) x0 x1 x2 x3 x4 x5 (ix2 (i 0) k)) x8
    (fun k => val_main_v20 (F := Ideal) x0 x1 x2 x3 x4 x5 (ix2 (i 0) k)) (fun k => hiddenArr x0 x2 x3 x4 x5 (ix2 (i 0) k))
    _ _ x9 (i 1) (fun k => ?_) (fun k => ?_) (fun k => ?_) (fun k => ?_)
  · -- the first 128 entries of the joined row are the gathered row
    show val_main_v21 (F := Ideal) x0 x1 x2 x3 x4 x5 (ix2 (i 0) ⟨k.val, _⟩) = _
    unfold val_main_v21
    exact concatenate_pair_apply_left (t := S400000x256) (s₁ := S400000x128) (s₂ := S400000x128) 1 _ _
      concatenates_S400000x128_S400000x128_S400000x256_d1 (ix2 (i 0) (⟨k.val, by omega⟩ : Fin 256)) rfl (ix2 (i 0) k)
      (fun b => by match b with | ⟨0, _⟩ => rfl | ⟨1, _⟩ => rfl)
  · -- the last 128 entries are the node's own hidden row
    show val_main_v21 (F := Ideal) x0 x1 x2 x3 x4 x5 (ix2 (i 0) ⟨128 + k.val, _⟩) = _
    unfold val_main_v21
    rw [ref_hidden]
    exact concatenate_pair_apply_right (t := S400000x256) (s₁ := S400000x128) (s₂ := S400000x128) 1 _ _
      concatenates_S400000x128_S400000x128_S400000x256_d1 (ix2 (i 0) (⟨128 + k.val, by omega⟩ : Fin 256)) rfl rfl (ix2 (i 0) k)
      (fun b hb => by
        match b, hb with
        | ⟨0, _⟩, _ => rfl
        | ⟨1, _⟩, hb => exact absurd rfl hb)
      (by show k.val + 128 = 128 + k.val; omega)
  · -- rows 0 .. 127 of the edge matrix are its top half
    exact (slice2_axis0_apply 0 x8 hT k (i 1) ⟨k.val, by omega⟩ (Nat.zero_add _).symm).symm
  · -- rows 128 .. 255 are its bottom half
    exact (slice2_axis0_apply 128 x8 hB k (i 1) ⟨128 + k.val, by omega⟩ rfl).symm

end Cert.ReferenceIdeal.RefValue

end
-- ==== Proof.lean ====
/-
  The kernel program and the reference compute the same potentials of a forest of 400000 tree nodes, as extended
  reals, from any arguments that agree.

  Both take each node's 256 features through two affine layers with max(., 0) to a hidden row of 128 entries, take
  one more affine layer of it for the 16 unary potentials, gather each node's parent's hidden row, and produce 256
  edge potentials from the pair (parent's row, own row); the result lays the unary and edge potentials side by side,
  272 entries a node.  The kernel program does the layers in two launches over 100 blocks of 4000 nodes each, with
  the gather and the cutting of the edge matrix in between on the host, and contracts the parent's row against the top
  half of the edge matrix and the own row against the bottom half, adding the two; the reference contracts the joined
  row against the whole matrix.  A sum over 256 indices splits at 128, in any additive commutative monoid, so the two
  agree at every extended real: the precondition (finite inputs) is never opened.  A change of float format is the
  identity on the extended reals, a product into a zero accumulator is the plain sum, and the gather is the same
  function of the hidden array and the parent indices in both programs (out-of-range indices included), so it is
  never opened either.

  The frames of the two kernel programs are the generated ones; the reference's frame is its generated run with the
  result dropped; the idealization ledger is empty.
-/
import proofs.«100820_j17549236372232_1_alg».proof.Defs
import proofs.«100820_j17549236372232_1_alg».proof.Proof.Gen.Kernel
import proofs.«100820_j17549236372232_1_alg».proof.Proof.Gen.Kernel.Skeleton
import proofs.«100820_j17549236372232_1_alg».proof.Proof.Gen.Kernel.Launch
import proofs.«100820_j17549236372232_1_alg».proof.Proof.Gen.Kernel.Points
import proofs.«100820_j17549236372232_1_alg».proof.Proof.Gen.Kernel.Frame
import proofs.«100820_j17549236372232_1_alg».proof.Proof.Gen.KernelIdeal
import proofs.«100820_j17549236372232_1_alg».proof.Proof.Gen.KernelIdeal.Skeleton
import proofs.«100820_j17549236372232_1_alg».proof.Proof.Gen.KernelIdeal.Launch
import proofs.«100820_j17549236372232_1_alg».proof.Proof.Gen.KernelIdeal.Points
import proofs.«100820_j17549236372232_1_alg».proof.Proof.Gen.KernelIdeal.Frame
import proofs.«100820_j17549236372232_1_alg».proof.Proof.Gen.ReferenceIdeal
import proofs.«100820_j17549236372232_1_alg».proof.Proof.Gen.ReferenceIdeal.Run
import proofs.«100820_j17549236372232_1_alg».proof.Proof.Gen.ReferenceIdeal.Read
import proofs.«100820_j17549236372232_1_alg».proof.Proof.Gen.Pre_finite_inputs
import proofs.«100820_j17549236372232_1_alg».proof.Proof.KernelRun
import proofs.«100820_j17549236372232_1_alg».proof.Proof.KernelFold
import proofs.«100820_j17549236372232_1_alg».proof.Proof.RefValue
import Idealize.ShloMosaic.Adequacy
import Idealize.ShloMosaic.Init

noncomputable section

namespace Cert.Proof

open Idealize.ShloMosaic Idealize.ShloMosaic.TcCoe Idealize.SL.Sem Cert.TreePotentials

/-! ## The two programs' pieces that are spelt in each program's own vocabulary are the same -/

/-- The gather's dimension numbers are the same record in both programs. -/
theorem gather_eq :
    Cert.KernelIdeal.gather_S400000x128_S400000x1_S400000x128_1_0_n_n_0_1_1128
      = Cert.ReferenceIdeal.gather_S400000x128_S400000x1_S400000x128_1_0_n_n_0_1_1128 := rfl

/-- The parent indices as the gather reads them are the same function of the parent array in both programs. -/
theorem idx_eq (par : IVec Cert.KernelIdeal.S400000 32) :
    Cert.KernelIdeal.Fold.parentIdx par = Cert.ReferenceIdeal.Read.val_main_v19 (F := Ideal) par := rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel program's result buffer ends at the unary and edge arrays of its arguments side by side (the two
    launches' arrays read back through the host operations), the reference's at its last stage of its arguments; the
    arguments agree, the hidden and unary stages are the same arrays, and the edge stage is the two-halves form by
    the splitting law. -/
theorem algebraic : Cert.algebraic_KernelIdeal_ReferenceIdeal := by
  intro m ρ m' ρ' _ hagree
  refine ⟨fun c => Cert.KernelIdeal.Gen.W4 m ρ c (Proc.devRef .tc Cert.KernelIdeal.main_v11),
    Cert.KernelIdeal.Run.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  show _ = Cert.KernelIdeal.Gen.W4 m ρ c (Proc.devRef .tc Cert.KernelIdeal.main_v11)
  rw [Cert.ReferenceIdeal.Read.val_main_v26_eq, h0, h1, h2, h3, h4, h5, h6, h7, h8, h9]
  rw [Cert.KernelIdeal.Fold.result_value]
  unfold Cert.ReferenceIdeal.Read.val_main_v26
  rw [Cert.ReferenceIdeal.RefValue.ref_unary,
    Cert.ReferenceIdeal.RefValue.ref_edge _ _ _ _ _ _ _ _ Cert.KernelIdeal.Gen.slices_S256x256_S128x256_0_0
      Cert.KernelIdeal.Gen.slices_S256x256_S128x256_128_0,
    Cert.ReferenceIdeal.RefValue.ref_gathered, ← idx_eq, ← gather_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
